-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1024 : Shape := ⟨2, ![20000, 1024]⟩
abbrev S81x1024 : Shape := ⟨2, ![81, 1024]⟩
abbrev S81 : Shape := ⟨1, ![81]⟩
abbrev S320x1024 : Shape := ⟨2, ![320, 1024]⟩
abbrev S320 : Shape := ⟨1, ![320]⟩
abbrev S_ : Shape := ⟨0, ![]⟩

class Facts : Prop where
  bcast_S_S20000x1024 : S_.BroadcastsInDim S20000x1024 (![] : Fin 0 → Fin S20000x1024.rank)
  reducesTo_S20000x1024_S_d0_1 : S20000x1024.ReducesTo [0, 1] S_
  h_S_ : 0 < S_.numel
  bcast_S_S81x1024 : S_.BroadcastsInDim S81x1024 (![] : Fin 0 → Fin S81x1024.rank)
  reducesTo_S81x1024_S_d0_1 : S81x1024.ReducesTo [0, 1] S_
  bcast_S_S81 : S_.BroadcastsInDim S81 (![] : Fin 0 → Fin S81.rank)
  reducesTo_S81_S_d0 : S81.ReducesTo [0] S_
  bcast_S_S320x1024 : S_.BroadcastsInDim S320x1024 (![] : Fin 0 → Fin S320x1024.rank)
  reducesTo_S320x1024_S_d0_1 : S320x1024.ReducesTo [0, 1] S_
  bcast_S_S320 : S_.BroadcastsInDim S320 (![] : Fin 0 → Fin S320.rank)
  reducesTo_S320_S_d0 : S320.ReducesTo [0] S_

variable [Facts]

def fn_part1 {F : FTy → Type} [FloatOps F] (main_arg4 : FVec F S320 .f32) (main_v13 : IVec S_ 1) (main_v16 : IVec S320x1024 1) : IVec S_ 1 :=
  let main_c_5 : IVec S_ 1 := constantI S_ 1 1#1
  let main_v17 : IVec S_ 1 := (fun x v => Host.reduce IntOp.andi x v reducesTo_S320x1024_S_d0_1 h_S_) main_v16 main_c_5
  let main_v18 : IVec S_ 1 := andi main_v13 main_v17
  let main_v19 : FVec F S320 .f32 := Host.absf main_arg4
  let main_cst_6 : FVec F S_ .f32 := constant S_ .f32 0x7F800000#32
  let main_v20 : FVec F S320 .f32 := broadcastInDim S320 ![] bcast_S_S320 main_cst_6
  let main_v21 : IVec S320 1 := cmpf .olt main_v19 main_v20
  let main_c_7 : IVec S_ 1 := constantI S_ 1 1#1
  let main_v22 : IVec S_ 1 := (fun x v => Host.reduce IntOp.andi x v reducesTo_S320_S_d0 h_S_) main_v21 main_c_7
  let main_v23 : IVec S_ 1 := andi main_v18 main_v22
  main_v23

def fn {F : FTy → Type} [FloatOps F] (main_arg0 : FVec F S20000x1024 .f32) (main_arg1 : FVec F S81x1024 .f32) (main_arg2 : FVec F S81 .f32) (main_arg3 : FVec F S320x1024 .f32) (main_arg4 : FVec F S320 .f32) : IVec S_ 1 :=
  let main_v0 : FVec F S20000x1024 .f32 := Host.absf main_arg0
  let main_cst : FVec F S_ .f32 := constant S_ .f32 0x7F800000#32
  let main_v1 : FVec F S20000x1024 .f32 := broadcastInDim S20000x1024 ![] bcast_S_S20000x1024 main_cst
  let main_v2 : IVec S20000x1024 1 := cmpf .olt main_v0 main_v1
  let main_c : IVec S_ 1 := constantI S_ 1 1#1
  let main_v3 : IVec S_ 1 := (fun x v => Host.reduce IntOp.andi x v reducesTo_S20000x1024_S_d0_1 h_S_) main_v2 main_c
  let main_v4 : FVec F S81x1024 .f32 := Host.absf main_arg1
  let main_cst_0 : FVec F S_ .f32 := constant S_ .f32 0x7F800000#32
  let main_v5 : FVec F S81x1024 .f32 := broadcastInDim S81x1024 ![] bcast_S_S81x1024 main_cst_0
  let main_v6 : IVec S81x1024 1 := cmpf .olt main_v4 main_v5
  let main_c_1 : IVec S_ 1 := constantI S_ 1 1#1
  let main_v7 : IVec S_ 1 := (fun x v => Host.reduce IntOp.andi x v reducesTo_S81x1024_S_d0_1 h_S_) main_v6 main_c_1
  let main_v8 : IVec S_ 1 := andi main_v3 main_v7
  let main_v9 : FVec F S81 .f32 := Host.absf main_arg2
  let main_cst_2 : FVec F S_ .f32 := constant S_ .f32 0x7F800000#32
  let main_v10 : FVec F S81 .f32 := broadcastInDim S81 ![] bcast_S_S81 main_cst_2
  let main_v11 : IVec S81 1 := cmpf .olt main_v9 main_v10
  let main_c_3 : IVec S_ 1 := constantI S_ 1 1#1
  let main_v12 : IVec S_ 1 := (fun x v => Host.reduce IntOp.andi x v reducesTo_S81_S_d0 h_S_) main_v11 main_c_3
  let main_v13 : IVec S_ 1 := andi main_v8 main_v12
  let main_v14 : FVec F S320x1024 .f32 := Host.absf main_arg3
  let main_cst_4 : FVec F S_ .f32 := constant S_ .f32 0x7F800000#32
  let main_v15 : FVec F S320x1024 .f32 := broadcastInDim S320x1024 ![] bcast_S_S320x1024 main_cst_4
  let main_v16 : IVec S320x1024 1 := cmpf .olt main_v14 main_v15
  fn_part1 (F := F) main_arg4 main_v13 main_v16
-- ==== Kernel.lean ====
abbrev S20000x1024 : Shape := ⟨2, ![20000, 1024]⟩
abbrev S81x1024 : Shape := ⟨2, ![81, 1024]⟩
abbrev S81 : Shape := ⟨1, ![81]⟩
abbrev S320x1024 : Shape := ⟨2, ![320, 1024]⟩
abbrev S320 : Shape := ⟨1, ![320]⟩
abbrev S81x1 : Shape := ⟨2, ![81, 1]⟩
abbrev S320x1 : Shape := ⟨2, ![320, 1]⟩
abbrev S81x20000 : Shape := ⟨2, ![81, 20000]⟩
abbrev S320x20000 : Shape := ⟨2, ![320, 20000]⟩
abbrev S20000x81 : Shape := ⟨2, ![20000, 81]⟩
abbrev S20000x320 : Shape := ⟨2, ![20000, 320]⟩
abbrev S2560x1024 : Shape := ⟨2, ![2560, 1024]⟩
abbrev S81x2560 : Shape := ⟨2, ![81, 2560]⟩
abbrev S320x2560 : Shape := ⟨2, ![320, 2560]⟩

abbrev nBuf : Space → Nat
  | .hbm => 11
  | .vmem => 10
  | .smem => 0
  | _ => 0

abbrev bufTy : (tb : Table) → Fin (tcTables nBuf tb) → BufTy
  | .hbm, ⟨0, _⟩ => ⟨S20000x1024, .f32⟩
  | .hbm, ⟨1, _⟩ => ⟨S81x1024, .f32⟩
  | .hbm, ⟨2, _⟩ => ⟨S81, .f32⟩
  | .hbm, ⟨3, _⟩ => ⟨S320x1024, .f32⟩
  | .hbm, ⟨4, _⟩ => ⟨S320, .f32⟩
  | .hbm, ⟨5, _⟩ => ⟨S81x1, .f32⟩
  | .hbm, ⟨6, _⟩ => ⟨S320x1, .f32⟩
  | .hbm, ⟨7, _⟩ => ⟨S81x20000, .f32⟩
  | .hbm, ⟨8, _⟩ => ⟨S320x20000, .f32⟩
  | .hbm, ⟨9, _⟩ => ⟨S20000x81, .f32⟩
  | .hbm, ⟨10, _⟩ => ⟨S20000x320, .f32⟩
  | .local _ .vmem, ⟨0, _⟩ => ⟨S2560x1024, .f32⟩
  | .local _ .vmem, ⟨1, _⟩ => ⟨S2560x1024, .f32⟩
  | .local _ .vmem, ⟨2, _⟩ => ⟨S81x1024, .f32⟩
  | .local _ .vmem, ⟨3, _⟩ => ⟨S320x1024, .f32⟩
  | .local _ .vmem, ⟨4, _⟩ => ⟨S81x1, .f32⟩
  | .local _ .vmem, ⟨5, _⟩ => ⟨S320x1, .f32⟩
  | .local _ .vmem, ⟨6, _⟩ => ⟨S81x2560, .f32⟩
  | .local _ .vmem, ⟨7, _⟩ => ⟨S81x2560, .f32⟩
  | .local _ .vmem, ⟨8, _⟩ => ⟨S320x2560, .f32⟩
  | .local _ .vmem, ⟨9, _⟩ => ⟨S320x2560, .f32⟩
  | _, _ => ⟨S20000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2_0 : Ref sig .tc := ⟨.hbm, 7, rfl⟩
abbrev main_call0_v2_1 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2560x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S81x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S320x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S81x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S320x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S81x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S81_S81x1 : S81.ShapeCasts S81x1
  shapeCasts_S320_S320x1 : S320.ShapeCasts S320x1
  transposes_S81x20000_S20000x81_1_0 : S81x20000.Transposes [1, 0] S20000x81
  transposes_S320x20000_S20000x320_1_0 : S320x20000.Transposes [1, 0] S20000x320
  inb_S2560x1024_S2560x1024_0_0 : ∀ a, (![0, 0] : Fin 2 → Nat) a + S2560x1024.size a ≤ S2560x1024.size a
  h_S2560x1024 : 0 < S2560x1024.numel
  inb_S81x1024_S81x1024_0_0 : ∀ a, (![0, 0] : Fin 2 → Nat) a + S81x1024.size a ≤ S81x1024.size a
  h_S81x1024 : 0 < S81x1024.numel
  inb_S81x1_S81x1_0_0 : ∀ a, (![0, 0] : Fin 2 → Nat) a + S81x1.size a ≤ S81x1.size a
  h_S81x1 : 0 < S81x1.numel
  shapeCasts_S81x1_S81x1 : S81x1.ShapeCasts S81x1
  broadcasts_S81x1_S81x2560 : S81x1.Broadcasts S81x2560
  inb_S81x2560_S81x2560_0_0 : ∀ a, (![0, 0] : Fin 2 → Nat) a + S81x2560.size a ≤ S81x2560.size a
  h_S81x2560 : 0 < S81x2560.numel
  inb_S320x1024_S320x1024_0_0 : ∀ a, (![0, 0] : Fin 2 → Nat) a + S320x1024.size a ≤ S320x1024.size a
  h_S320x1024 : 0 < S320x1024.numel
  inb_S320x1_S320x1_0_0 : ∀ a, (![0, 0] : Fin 2 → Nat) a + S320x1.size a ≤ S320x1.size a
  h_S320x1 : 0 < S320x1.numel
  shapeCasts_S320x1_S320x1 : S320x1.ShapeCasts S320x1
  broadcasts_S320x1_S320x2560 : S320x1.Broadcasts S320x2560
  inb_S320x2560_S320x2560_0_0 : ∀ a, (![0, 0] : Fin 2 → Nat) a + S320x2560.size a ≤ S320x2560.size a
  h_S320x2560 : 0 < S320x2560.numel
  dot_S81x1024_S2560x1024_S81x2560_1_1_0_0_n_n_wf : DotDims.WF S81x1024 S2560x1024 S81x2560 [1] [1] [0] [0] [] []
  dot_S320x1024_S2560x1024_S320x2560_1_1_0_0_n_n_wf : DotDims.WF S320x1024 S2560x1024 S320x2560 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2560x1024.size a < S20000x1024.size a
  hwx0_0 : ∀ i : grid0.Coords, EltTy.bits .f32 = 32 ∨ (Rect.unit (s := S20000x1024) (fun a => cc0_transform_0 i a * S2560x1024.size a) (fun a => (Pipeline.Clip.of (cc0_transform_0 i a) (S2560x1024.size a) (S20000x1024.size a)).extent (S2560x1024.size a)) fun a => Pipeline.Clip.inb (Pipeline.Clip.ok_of (hstart0_0 i a))).WholeWords (EltTy.packing .f32)
  hwxs0_0 : ∀ i : grid0.Coords, EltTy.bits .f32 = 32 ∨ (Rect.unit (s := S2560x1024) (fun _ => 0) (fun a => (Pipeline.Clip.of (cc0_transform_0 i a) (S2560x1024.size a) (S20000x1024.size a)).extent (S2560x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S81x1024.size a ≤ S81x1024.size a
  hwx0_1 : ∀ i : grid0.Coords, EltTy.bits .f32 = 32 ∨ (Rect.block (s := S81x1024) S81x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S320x1024.size a ≤ S320x1024.size a
  hwx0_2 : ∀ i : grid0.Coords, EltTy.bits .f32 = 32 ∨ (Rect.block (s := S320x1024) S320x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S81x1.size a ≤ S81x1.size a
  hwx0_3 : ∀ i : grid0.Coords, EltTy.bits .f32 = 32 ∨ (Rect.block (s := S81x1) S81x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S320x1.size a ≤ S320x1.size a
  hwx0_4 : ∀ i : grid0.Coords, EltTy.bits .f32 = 32 ∨ (Rect.block (s := S320x1) S320x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S81x2560.size a < S81x20000.size a
  hwx0_5 : ∀ i : grid0.Coords, EltTy.bits .f32 = 32 ∨ (Rect.unit (s := S81x20000) (fun a => cc0_transform_5 i a * S81x2560.size a) (fun a => (Pipeline.Clip.of (cc0_transform_5 i a) (S81x2560.size a) (S81x20000.size a)).extent (S81x2560.size a)) fun a => Pipeline.Clip.inb (Pipeline.Clip.ok_of (hstart0_5 i a))).WholeWords (EltTy.packing .f32)
  hwxs0_5 : ∀ i : grid0.Coords, EltTy.bits .f32 = 32 ∨ (Rect.unit (s := S81x2560) (fun _ => 0) (fun a => (Pipeline.Clip.of (cc0_transform_5 i a) (S81x2560.size a) (S81x20000.size a)).extent (S81x2560.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S320x2560.size a < S320x20000.size a
  hwx0_6 : ∀ i : grid0.Coords, EltTy.bits .f32 = 32 ∨ (Rect.unit (s := S320x20000) (fun a => cc0_transform_6 i a * S320x2560.size a) (fun a => (Pipeline.Clip.of (cc0_transform_6 i a) (S320x2560.size a) (S320x20000.size a)).extent (S320x2560.size a)) fun a => Pipeline.Clip.inb (Pipeline.Clip.ok_of (hstart0_6 i a))).WholeWords (EltTy.packing .f32)
  hwxs0_6 : ∀ i : grid0.Coords, EltTy.bits .f32 = 32 ∨ (Rect.unit (s := S320x2560) (fun _ => 0) (fun a => (Pipeline.Clip.of (cc0_transform_6 i a) (S320x2560.size a) (S320x20000.size a)).extent (S320x2560.size a)) fun a => (Nat.zero_add _).trans_le (Pipeline.Clip.extent_le (Pipeline.Clip.ok_of (hstart0_6 i a)))).WholeWords (EltTy.packing .f32)

variable [Facts₀]

def dot_S81x1024_S2560x1024_S81x2560_1_1_0_0_n_n : DotDims S81x1024 S2560x1024 S81x2560 where
  lhsContracting := [1]
  rhsContracting := [1]
  lhsNonContracting := [0]
  rhsNonContracting := [0]
  lhsBatch := []
  rhsBatch := []
  wf := dot_S81x1024_S2560x1024_S81x2560_1_1_0_0_n_n_wf
def dot_S320x1024_S2560x1024_S320x2560_1_1_0_0_n_n : DotDims S320x1024 S2560x1024 S320x2560 where
  lhsContracting := [1]
  rhsContracting := [1]
  lhsNonContracting := [0]
  rhsNonContracting := [0]
  lhsBatch := []
  rhsBatch := []
  wf := dot_S320x1024_S2560x1024_S320x2560_1_1_0_0_n_n_wf

abbrev win0_0 : Pipeline.Window sig grid0 :=
  Pipeline.Window.ofSpecClip (Memref.whole main_arg0) S2560x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S81x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S320x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S81x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S320x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_call0_v2_0) S81x2560.size cc0_transform_5 reads0_5 true false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_call0_v2_1) S320x2560.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S20000x1024 : Shape := ⟨2, ![20000, 1024]⟩
abbrev S81x1024 : Shape := ⟨2, ![81, 1024]⟩
abbrev S81 : Shape := ⟨1, ![81]⟩
abbrev S320x1024 : Shape := ⟨2, ![320, 1024]⟩
abbrev S320 : Shape := ⟨1, ![320]⟩
abbrev S1024x81 : Shape := ⟨2, ![1024, 81]⟩
abbrev S20000x81 : Shape := ⟨2, ![20000, 81]⟩
abbrev S1x81 : Shape := ⟨2, ![1, 81]⟩
abbrev S1024x320 : Shape := ⟨2, ![1024, 320]⟩
abbrev S20000x320 : Shape := ⟨2, ![20000, 320]⟩
abbrev S1x320 : Shape := ⟨2, ![1, 320]⟩

abbrev nBuf : Space → Nat
  | .hbm => 15
  | .vmem => 0
  | .smem => 0
  | _ => 0

abbrev bufTy : (tb : Table) → Fin (tcTables nBuf tb) → BufTy
  | .hbm, ⟨0, _⟩ => ⟨S20000x1024, .f32⟩
  | .hbm, ⟨1, _⟩ => ⟨S81x1024, .f32⟩
  | .hbm, ⟨2, _⟩ => ⟨S81, .f32⟩
  | .hbm, ⟨3, _⟩ => ⟨S320x1024, .f32⟩
  | .hbm, ⟨4, _⟩ => ⟨S320, .f32⟩
  | .hbm, ⟨5, _⟩ => ⟨S1024x81, .f32⟩
  | .hbm, ⟨6, _⟩ => ⟨S20000x81, .f32⟩
  | .hbm, ⟨7, _⟩ => ⟨S1x81, .f32⟩
  | .hbm, ⟨8, _⟩ => ⟨S20000x81, .f32⟩
  | .hbm, ⟨9, _⟩ => ⟨S20000x81, .f32⟩
  | .hbm, ⟨10, _⟩ => ⟨S1024x320, .f32⟩
  | .hbm, ⟨11, _⟩ => ⟨S20000x320, .f32⟩
  | .hbm, ⟨12, _⟩ => ⟨S1x320, .f32⟩
  | .hbm, ⟨13, _⟩ => ⟨S20000x320, .f32⟩
  | .hbm, ⟨14, _⟩ => ⟨S20000x320, .f32⟩
  | _, _ => ⟨S20000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  transposes_S81x1024_S1024x81_1_0 : S81x1024.Transposes [1, 0] S1024x81
  bcast_S81_S1x81_1 : S81.BroadcastsInDim S1x81 (![1] : Fin 1 → Fin S1x81.rank)
  bcast_S1x81_S20000x81_0_1 : S1x81.BroadcastsInDim S20000x81 (![0, 1] : Fin 2 → Fin S20000x81.rank)
  transposes_S320x1024_S1024x320_1_0 : S320x1024.Transposes [1, 0] S1024x320
  bcast_S320_S1x320_1 : S320.BroadcastsInDim S1x320 (![1] : Fin 1 → Fin S1x320.rank)
  bcast_S1x320_S20000x320_0_1 : S1x320.BroadcastsInDim S20000x320 (![0, 1] : Fin 2 → Fin S20000x320.rank)
  dot_S20000x1024_S1024x81_S20000x81_1_0_0_1_n_n_wf : DotDims.WF S20000x1024 S1024x81 S20000x81 [1] [0] [0] [1] [] []
  dot_S20000x1024_S1024x320_S20000x320_1_0_0_1_n_n_wf : DotDims.WF S20000x1024 S1024x320 S20000x320 [1] [0] [0] [1] [] []

variable [Facts₀]

def dot_S20000x1024_S1024x81_S20000x81_1_0_0_1_n_n : DotDims S20000x1024 S1024x81 S20000x81 where
  lhsContracting := [1]
  rhsContracting := [0]
  lhsNonContracting := [0]
  rhsNonContracting := [1]
  lhsBatch := []
  rhsBatch := []
  wf := dot_S20000x1024_S1024x81_S20000x81_1_0_0_1_n_n_wf
def dot_S20000x1024_S1024x320_S20000x320_1_0_0_1_n_n : DotDims S20000x1024 S1024x320 S20000x320 where
  lhsContracting := [1]
  rhsContracting := [0]
  lhsNonContracting := [0]
  rhsNonContracting := [1]
  lhsBatch := []
  rhsBatch := []
  wf := dot_S20000x1024_S1024x320_S20000x320_1_0_0_1_n_n_wf

class Facts : Prop extends Facts₀ where

variable [Facts]
-- ==== Proof.KernelBody.lean ====
import proofs.«102780_g27968827032233_cont_9to1_1234_17_alg».proof.Proof.Gen.Kernel.Frame
import proofs.«102780_g27968827032233_cont_9to1_1234_17_alg».proof.Proof.Gen.Kernel.Skeleton
import Idealize.ShloMosaic.Lib.Pipeline.Kit
import Idealize.ShloMosaic.Lib.Pipeline.Value
import Idealize.ShloMosaic.Lib.Tactic

set_option maxRecDepth 16384

noncomputable section

namespace Cert.Kernel.Heads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

open Cert.Kernel Cert.Kernel.Gen

variable {F : FTy → Type} [FloatOps F]

local notation "𝕄" => MT nD τ sig Unit (Elt F) ℕ (UR sig nD τ) ℕ

/-- A buffer read back after ONE store through the rectangle at offset zero of the buffer's own size holds the
    stored value, whatever it held before. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  subst h
  rw [View.read_writes_eq_canon _ _ _ (fun y => ⟨_, List.mem_singleton_self _, by
    show y ∈ (Rect.whole S).set; rw [Rect.set_whole]; exact Finset.mem_univ y⟩), View.canon_unit_zero rfl]

set_option maxHeartbeats 1000000 in
theorem sound_kernel (c : Dev nD) (E : Set ℕ) (i : grid0.Coords)
    (arg1 : Memref sig .tc .vmem S2560x1024 .f32) (harg1 : arg1.IsWhole) (arg2 : Memref sig .tc .vmem S81x1024 .f32) (harg2 : arg2.IsWhole)
    (arg3 : Memref sig .tc .vmem S320x1024 .f32) (harg3 : arg3.IsWhole) (arg4 : Memref sig .tc .vmem S81x1 .f32) (harg4 : arg4.IsWhole)
    (arg5 : Memref sig .tc .vmem S320x1 .f32) (harg5 : arg5.IsWhole) (arg6 : Memref sig .tc .vmem S81x2560 .f32) (harg6 : arg6.IsWhole)
    (arg7 : Memref sig .tc .vmem S320x2560 .f32) (harg7 : arg7.IsWhole)
    (x0 : Vec F S2560x1024 .f32) (x1 : Vec F S81x1024 .f32) (x2 : Vec F S320x1024 .f32) (x3 : Vec F S81x1 .f32) (x4 : Vec F S320x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay1 x0 x1 x3) ∗ owns (c : Thread nD τ) arg7 fullShare (k0_pay2 x0 x2 x4)) -∗ K ⟨⟩))
      ⊢ wp frame (wpE (defs₀ (F := F)) Variants.none c none) E
          (cc0__fused_heads_kernel i arg1 harg1 arg2 harg2 arg3 harg3 arg4 harg4 arg5 harg5 arg6 harg6 arg7 harg7) K := by
  simp only [cc0__fused_heads_kernel_eq_skeleton]; unfold cc0__fused_heads_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  have hz : (![0, 0] : Fin 2 → Nat) = fun _ => 0 := funext fun a => by fin_cases a <;> rfl
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_whole _ _ hz]
    simp only [View.readAt_eq_ld, View.ld_unit_zero (S := S2560x1024) hz, View.ld_unit_zero (S := S81x1024) hz, View.ld_unit_zero (S := S81x1) hz]
  · iexists _; isplitr
    swap; · iexact H6
    ipureintro
    rw [read_writes_whole _ _ hz]
    simp only [View.readAt_eq_ld, View.ld_unit_zero (S := S2560x1024) hz, View.ld_unit_zero (S := S320x1024) hz, View.ld_unit_zero (S := S320x1) hz]

end Cert.Kernel.Heads

end
-- ==== Proof.KernelFrame.lean ====
import proofs.«102780_g27968827032233_cont_9to1_1234_17_alg».proof.Defs
import proofs.«102780_g27968827032233_cont_9to1_1234_17_alg».proof.Proof.Gen.Kernel.Frame
import proofs.«102780_g27968827032233_cont_9to1_1234_17_alg».proof.Proof.Gen.Pre_finite_inputs
import proofs.«102780_g27968827032233_cont_9to1_1234_17_alg».proof.Proof.KernelBody
import Idealize.ShloMosaic.Lib.Pipeline.Kit
import Idealize.ShloMosaic.Lib.Pipeline.FrameSuffix
import Idealize.ShloMosaic.Lib.Tactic

set_option maxRecDepth 16384

noncomputable section

namespace Cert.Kernel.Heads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

open Cert.Kernel Cert.Kernel.Gen

section Data

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`, relational: each windowed array at its contents when the region is
    entered; of what the body leaves in any current staging buffer NOTHING is said (the relation holds of any two
    contents); the invariant the class's (the scoped rest and the generator register, untouched); nothing owed; full
    shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- What the body is called with at point `t`: the invariant, what the core owes, and each window's current staging
    buffer at the contents `Y w` it was handed. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6))

/-- What it returns: the invariant, what the core owes, and each buffer at SOME contents. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X)
    ∗ (∃ X, ⌜(rdat m c).after 5 t (Y 5) X⌝ ∗ owns (c : Thread nD τ) (st0_5 t) fullShare X)
    ∗ (∃ X, ⌜(rdat m c).after 6 t (Y 6) X⌝ ∗ owns (c : Thread nD τ) (st0_6 t) fullShare X))

/-- The body at any point, whatever its buffers hold: the five inputs' buffers come back as handed over, the two outputs'
    at what the body stored; the invariant and the core's dues pass through unread. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdat m c).Φ t.succ = (rdat m c).Φ t.castSucc from rfl,
    show (rdat m c).owesAt () t.succ = (rdat m c).owesAt () t.castSucc from rfl]
  iintro ⟨HΦ, Ho, H0, H1, H2, H3, H4, H5, H6⟩
  iapply (sound_kernel c Set.univ (grid0.coords t) _ _ _ _ _ _ _ _ _ _ _ _ _ _ (Y 0) (Y 1) (Y 2) (Y 3) (Y 4) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  isplitl [H4]
  · iexists (Y 4); isplitr; · ipureintro; trivial
    iexact H4
  isplitl [H5]
  · iexists (k0_pay1 (Y 0) (Y 1) (Y 3)); isplitr; · ipureintro; trivial
    iexact H5
  · iexists (k0_pay2 (Y 0) (Y 2) (Y 4)); isplitr; · ipureintro; trivial
    iexact H6

/-- The library's body obligation of the relational data, at every point: nothing of what the buffers may hold is used. -/
theorem body_obligation (c : Dev nD) : (rdat m c).BodyObligation (defs₀ (F := F)) Variants.none () Set.univ := fun t Y _ => by
  rw [bigSep_W0, bigSep_W0]
  exact sound_body m c t Y

end Data

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the host lines after the region write: the two transposes' results. -/
def T : Finset (Ref sig .tc) := {main_v0_0, main_v0_1}

/-- Each host line after the region writes its own result only, one of `T`'s two. -/
theorem sfx_T : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl
  all_goals
    intro b hb
    simp only [StableHlo.unary_writes, Finset.mem_singleton] at hb
    have hb' := Proc.devRef_injective (τ := τ) _ hb
    subst hb'
    decide

theorem share_full (c : Dev nD) (w : Fin cfg0.W) : (rdat m c).share w = fullShare := by
  unfold RDat.share; split <;> rfl

set_option backward.isDefEq.respectTransparency.types false in
/-- At the compiled mesh, for any values, from any memory with zero counters: every weakly fair execution of @main on the
    TensorCores terminates, every array of the pipeline ends at some contents it may hold after every write-back (an
    input's its contents at the region's entry), and every other unscoped buffer the later host lines do not write ends
    as the region found it. -/
theorem run_main : θ_run defs (onTc (τ := τ) (main (F := F))) (s₀ m ρ)
    (RDat.FramePostR cfg0 (rdat m) T (fun c b => V0 m c (Proc.devRef .tc b))) :=
  Pipeline.RDat.θ_run_frame_around_T cfgs (0 : Fin 1) launch0 defs₀ Variants.none (rdat m) T m ρ main
    (hbody := body_obligation m) (hshare := share_full m) (howed := fun _ _ => rfl) (V₀ := V0 m) (opss := [hostOps1])
    (hsub := sfx_sub) (hfresh := sfx_fresh) (hkeep := sfx_keeps) (hT := sfx_T) (hmain := hmain m Variants.none)
    (hA := fun _ _ => rfl) (hΦ := fun _ _ => rfl)

/-- The frame claim's post, at any `F`: the three staged argument arrays by the post's first clause read at an input
    window, the two no window stages (and no later host line writes) by its second. -/
theorem frame_gen : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r (h : RDat.FramePostR cfg0 (rdat m) T (fun c b => V0 m c (Proc.devRef .tc b)) r) c =>
    ⟨(Pipeline.RDat.FramePostR.arr_in h c 0 rfl).trans (V_main_arg0 m c),
      (Pipeline.RDat.FramePostR.arr_in h c 1 rfl).trans (V_main_arg1 m c),
      ((h c).2 main_arg2 (Finset.mem_sdiff.mpr ⟨Pipeline.mem_restRefs_of main_arg2 (by decide) (by decide), by decide⟩)).trans
        (V_main_arg2 m c),
      (Pipeline.RDat.FramePostR.arr_in h c 2 rfl).trans (V_main_arg3 m c),
      ((h c).2 main_arg4 (Finset.mem_sdiff.mpr ⟨Pipeline.mem_restRefs_of main_arg4 (by decide) (by decide), by decide⟩)).trans
        (V_main_arg4 m c)⟩) (run_main m ρ)

end Run

/-- The word-level program runs to the end without a fault and leaves its five argument arrays as launched. -/
theorem frame : Cert.frame_Kernel := by
  intro m ρ _
  exact frame_gen (F := Bits) m ρ

end Cert.Kernel.Heads

end
-- ==== Proof.HeadsBody.lean ====
import proofs.«102780_g27968827032233_cont_9to1_1234_17_alg».proof.Proof.Gen.KernelIdeal.Frame
import proofs.«102780_g27968827032233_cont_9to1_1234_17_alg».proof.Proof.Gen.KernelIdeal.Skeleton
import Idealize.ShloMosaic.Lib.Pipeline.Kit
import Idealize.ShloMosaic.Lib.Pipeline.Value
import Idealize.ShloMosaic.Lib.Tactic

set_option maxRecDepth 16384

noncomputable section

namespace Cert.KernelIdeal.Heads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

open Cert.KernelIdeal Cert.KernelIdeal.Gen

variable {F : FTy → Type} [FloatOps F]

local notation "𝕄" => MT nD τ sig Unit (Elt F) ℕ (UR sig nD τ) ℕ

/-- A buffer read back after ONE store through the rectangle at offset zero of the buffer's own size holds the
    stored value, whatever it held before. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  subst h
  rw [View.read_writes_eq_canon _ _ _ (fun y => ⟨_, List.mem_singleton_self _, by
    show y ∈ (Rect.whole S).set; rw [Rect.set_whole]; exact Finset.mem_univ y⟩), View.canon_unit_zero rfl]

set_option maxHeartbeats 1000000 in
theorem sound_kernel (c : Dev nD) (E : Set ℕ) (i : grid0.Coords)
    (arg1 : Memref sig .tc .vmem S2560x1024 .f32) (harg1 : arg1.IsWhole) (arg2 : Memref sig .tc .vmem S81x1024 .f32) (harg2 : arg2.IsWhole)
    (arg3 : Memref sig .tc .vmem S320x1024 .f32) (harg3 : arg3.IsWhole) (arg4 : Memref sig .tc .vmem S81x1 .f32) (harg4 : arg4.IsWhole)
    (arg5 : Memref sig .tc .vmem S320x1 .f32) (harg5 : arg5.IsWhole) (arg6 : Memref sig .tc .vmem S81x2560 .f32) (harg6 : arg6.IsWhole)
    (arg7 : Memref sig .tc .vmem S320x2560 .f32) (harg7 : arg7.IsWhole)
    (x0 : Vec F S2560x1024 .f32) (x1 : Vec F S81x1024 .f32) (x2 : Vec F S320x1024 .f32) (x3 : Vec F S81x1 .f32) (x4 : Vec F S320x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay1 x0 x1 x3) ∗ owns (c : Thread nD τ) arg7 fullShare (k0_pay2 x0 x2 x4)) -∗ K ⟨⟩))
      ⊢ wp frame (wpE (defs₀ (F := F)) Variants.none c none) E
          (cc0__fused_heads_kernel i arg1 harg1 arg2 harg2 arg3 harg3 arg4 harg4 arg5 harg5 arg6 harg6 arg7 harg7) K := by
  simp only [cc0__fused_heads_kernel_eq_skeleton]; unfold cc0__fused_heads_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  have hz : (![0, 0] : Fin 2 → Nat) = fun _ => 0 := funext fun a => by fin_cases a <;> rfl
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_whole _ _ hz]
    simp only [View.readAt_eq_ld, View.ld_unit_zero (S := S2560x1024) hz, View.ld_unit_zero (S := S81x1024) hz, View.ld_unit_zero (S := S81x1) hz]
  · iexists _; isplitr
    swap; · iexact H6
    ipureintro
    rw [read_writes_whole _ _ hz]
    simp only [View.readAt_eq_ld, View.ld_unit_zero (S := S2560x1024) hz, View.ld_unit_zero (S := S320x1024) hz, View.ld_unit_zero (S := S320x1) hz]

end Cert.KernelIdeal.Heads

end
-- ==== Proof.IdealData.lean ====
import proofs.«102780_g27968827032233_cont_9to1_1234_17_alg».proof.Proof.Gen.KernelIdeal.Frame
import proofs.«102780_g27968827032233_cont_9to1_1234_17_alg».proof.Proof.Gen.KernelIdeal.Skeleton
import Idealize.ShloMosaic.Lib.Pipeline.Kit
import Idealize.ShloMosaic.Lib.Pipeline.Value

set_option maxRecDepth 16384

noncomputable section

namespace Cert.KernelIdeal.Heads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The proof data

At grid point `t` the activation window holds rows `2560 t ‥ 2560 t + 2559` of `x`; at the last point only the
first 2080 of them lie inside the array, and nothing is known of the other 480 rows of the staging buffer. The
data below name the staging buffer with those rows filled by the zero word: the body's results on the columns
that are written back do not depend on the choice (each output column reads one activation row). -/

/-- The activation block at point `t`, its rows past the array's end filled with the zero word. -/
def xfill (c : Dev nD) (t : Fin cfg0.N) : S2560x1024.Idx → Elt F .f32 :=
  win0_0.fill (grid0.coords t) (fun _ => Scalar.ofBits .f32 0#32) (iblk m c 0 t)

/-- Per core: the arrays as the region finds them; after the body the five input buffers at their blocks
    (the activation block filled out as above) and the two output buffers at the body's two results of them. -/
def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => iblk m c 3 t
    | ⟨4, _⟩ => iblk m c 4 t
    | ⟨5, _⟩ => k0_pay1 (xfill m c t) (iblk m c 1 t) (iblk m c 3 t)
    | ⟨6, _⟩ => k0_pay2 (xfill m c t) (iblk m c 2 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfill m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = k0_pay1 (xfill m c t) (iblk m c 1 t) (iblk m c 3 t) := by dsimp only [dats]
theorem after0_6 (c : Dev nD) (t : Fin cfg0.N) :
    (dats m 0 c).after 6 t = k0_pay2 (xfill m c t) (iblk m c 2 t) (iblk m c 4 t) := by dsimp only [dats]

/-- The activation window is fetched at every point: its buffer holds the block on the rows inside the array
    and anything (`d`) past them. -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]

/-- The weights and biases are fetched once and stay in place. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.KernelIdeal.Heads

end
-- ==== Proof.HeadsValue.lean ====
import proofs.«102780_g27968827032233_cont_9to1_1234_17_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HeadsValue

open Cert.KernelIdeal Cert.KernelIdeal.Gen Idealize.ShloMosaic Idealize.ShloMosaic.TcCoe ValueIdx

/-! ## The 81-row head: where its product reads its operands -/

/-- The left operand's free axis reads the result's row. -/
theorem lhs_pay1_0 (i : S81x2560.Idx) (c : dot_S81x1024_S2560x1024_S81x2560_1_1_0_0_n_n.contr.Idx) :
    (dot_S81x1024_S2560x1024_S81x2560_1_1_0_0_n_n.lhsIdx i c 0).val = (i 0).val := by
  unfold DotDims.lhsIdx
  rw [dif_neg (show ¬(0 : Fin S81x1024.rank) ∈ dot_S81x1024_S2560x1024_S81x2560_1_1_0_0_n_n.lhsBatch by decide), dif_pos (show (0 : Fin S81x1024.rank) ∈ dot_S81x1024_S2560x1024_S81x2560_1_1_0_0_n_n.lhsNonContracting by decide)]
  rfl
/-- The left operand's contracted axis reads the contraction position. -/
theorem lhs_pay1_1 (i : S81x2560.Idx) (c : dot_S81x1024_S2560x1024_S81x2560_1_1_0_0_n_n.contr.Idx) :
    (dot_S81x1024_S2560x1024_S81x2560_1_1_0_0_n_n.lhsIdx i c 1).val = (c ⟨0, by decide⟩).val :=
  dot_S81x1024_S2560x1024_S81x2560_1_1_0_0_n_n.lhsIdx_val_of_single rfl i c
/-- The right operand's free axis reads the result's column (after the left operand's one free axis). -/
theorem rhs_pay1_0 (i : S81x2560.Idx) (c : dot_S81x1024_S2560x1024_S81x2560_1_1_0_0_n_n.contr.Idx) :
    (dot_S81x1024_S2560x1024_S81x2560_1_1_0_0_n_n.rhsIdx i c 0).val = (i 1).val := by
  unfold DotDims.rhsIdx
  rw [dif_neg (show ¬(0 : Fin S2560x1024.rank) ∈ dot_S81x1024_S2560x1024_S81x2560_1_1_0_0_n_n.rhsBatch by decide), dif_pos (show (0 : Fin S2560x1024.rank) ∈ dot_S81x1024_S2560x1024_S81x2560_1_1_0_0_n_n.rhsNonContracting by decide)]
  rfl
/-- The right operand's contracted axis reads the contraction position. -/
theorem rhs_pay1_1 (i : S81x2560.Idx) (c : dot_S81x1024_S2560x1024_S81x2560_1_1_0_0_n_n.contr.Idx) :
    (dot_S81x1024_S2560x1024_S81x2560_1_1_0_0_n_n.rhsIdx i c 1).val = (c ⟨0, by decide⟩).val :=
  dot_S81x1024_S2560x1024_S81x2560_1_1_0_0_n_n.rhsIdx_val_of_single rfl i c

/-- The product into the zero accumulator at (r, q): row r of the left operand against row q of the right, over the
    1024 shared positions. -/
theorem mm_pay1_apply (x : Vec Ideal S2560x1024 .f32) (w : Vec Ideal S81x1024 .f32) (r : Fin 81) (q : Fin 2560) :
    matmul (F := Ideal) (φ₁ := .f32) (φ₂ := .f32) dot_S81x1024_S2560x1024_S81x2560_1_1_0_0_n_n none w x (constant (F := Ideal) S81x2560 .f32 0x00000000#32) (ix2 r q)
      = ∑ k : Fin 1024, w (ix2 r k) * x (ix2 q k) := by
  refine (Ideal.matmul_constant_zero_apply dot_S81x1024_S2560x1024_S81x2560_1_1_0_0_n_n none w x (ix2 r q)).trans ?_
  rw [← Equiv.sum_comp (contrEquiv1 dot_S81x1024_S2560x1024_S81x2560_1_1_0_0_n_n 1024 rfl rfl).symm]
  refine Finset.sum_congr rfl fun k _ => ?_
  have hk := contrEquiv1_symm_val dot_S81x1024_S2560x1024_S81x2560_1_1_0_0_n_n 1024 rfl rfl k
  have el : dot_S81x1024_S2560x1024_S81x2560_1_1_0_0_n_n.lhsIdx (ix2 r q) ((contrEquiv1 dot_S81x1024_S2560x1024_S81x2560_1_1_0_0_n_n 1024 rfl rfl).symm k) = ix2 r k := funext fun a => Fin.ext (by
    match a with
    | ⟨0, _⟩ => exact lhs_pay1_0 _ _
    | ⟨1, _⟩ => exact (lhs_pay1_1 _ _).trans hk)
  have er : dot_S81x1024_S2560x1024_S81x2560_1_1_0_0_n_n.rhsIdx (ix2 r q) ((contrEquiv1 dot_S81x1024_S2560x1024_S81x2560_1_1_0_0_n_n 1024 rfl rfl).symm k) = ix2 q k := funext fun a => Fin.ext (by
    match a with
    | ⟨0, _⟩ => exact rhs_pay1_0 _ _
    | ⟨1, _⟩ => exact (rhs_pay1_1 _ _).trans hk)
  rw [el, er]

/-- The bias column, recast to its own shape and broadcast along the rows' 2560 positions, reads its entry of row r. -/
theorem bias_pay1_apply (b : Vec Ideal S81x1 .f32) (r : Fin 81) (q : Fin 2560) :
    broadcastTo S81x2560 (shapeCast S81x1 b shapeCasts_S81x1_S81x1) broadcasts_S81x1_S81x2560 (ix2 r q) = b (ix2 r (0 : Fin 1)) := by
  rw [shapeCast_self]
  refine broadcastTo_apply b broadcasts_S81x1_S81x2560 (ix2 r q) (ix2 r (0 : Fin 1)) fun a => ?_
  match a with
  | ⟨0, _⟩ => show r.val = if (81 : Nat) = 1 then 0 else r.val; rw [if_neg (by decide)]
  | ⟨1, _⟩ => show (0 : Fin 1).val = if (1 : Nat) = 1 then 0 else q.val; rw [if_pos rfl]; rfl

/-! ## The 320-row head: where its product reads its operands -/

/-- The left operand's free axis reads the result's row. -/
theorem lhs_pay2_0 (i : S320x2560.Idx) (c : dot_S320x1024_S2560x1024_S320x2560_1_1_0_0_n_n.contr.Idx) :
    (dot_S320x1024_S2560x1024_S320x2560_1_1_0_0_n_n.lhsIdx i c 0).val = (i 0).val := by
  unfold DotDims.lhsIdx
  rw [dif_neg (show ¬(0 : Fin S320x1024.rank) ∈ dot_S320x1024_S2560x1024_S320x2560_1_1_0_0_n_n.lhsBatch by decide), dif_pos (show (0 : Fin S320x1024.rank) ∈ dot_S320x1024_S2560x1024_S320x2560_1_1_0_0_n_n.lhsNonContracting by decide)]
  rfl
/-- The left operand's contracted axis reads the contraction position. -/
theorem lhs_pay2_1 (i : S320x2560.Idx) (c : dot_S320x1024_S2560x1024_S320x2560_1_1_0_0_n_n.contr.Idx) :
    (dot_S320x1024_S2560x1024_S320x2560_1_1_0_0_n_n.lhsIdx i c 1).val = (c ⟨0, by decide⟩).val :=
  dot_S320x1024_S2560x1024_S320x2560_1_1_0_0_n_n.lhsIdx_val_of_single rfl i c
/-- The right operand's free axis reads the result's column (after the left operand's one free axis). -/
theorem rhs_pay2_0 (i : S320x2560.Idx) (c : dot_S320x1024_S2560x1024_S320x2560_1_1_0_0_n_n.contr.Idx) :
    (dot_S320x1024_S2560x1024_S320x2560_1_1_0_0_n_n.rhsIdx i c 0).val = (i 1).val := by
  unfold DotDims.rhsIdx
  rw [dif_neg (show ¬(0 : Fin S2560x1024.rank) ∈ dot_S320x1024_S2560x1024_S320x2560_1_1_0_0_n_n.rhsBatch by decide), dif_pos (show (0 : Fin S2560x1024.rank) ∈ dot_S320x1024_S2560x1024_S320x2560_1_1_0_0_n_n.rhsNonContracting by decide)]
  rfl
/-- The right operand's contracted axis reads the contraction position. -/
theorem rhs_pay2_1 (i : S320x2560.Idx) (c : dot_S320x1024_S2560x1024_S320x2560_1_1_0_0_n_n.contr.Idx) :
    (dot_S320x1024_S2560x1024_S320x2560_1_1_0_0_n_n.rhsIdx i c 1).val = (c ⟨0, by decide⟩).val :=
  dot_S320x1024_S2560x1024_S320x2560_1_1_0_0_n_n.rhsIdx_val_of_single rfl i c

/-- The product into the zero accumulator at (r, q): row r of the left operand against row q of the right, over the
    1024 shared positions. -/
theorem mm_pay2_apply (x : Vec Ideal S2560x1024 .f32) (w : Vec Ideal S320x1024 .f32) (r : Fin 320) (q : Fin 2560) :
    matmul (F := Ideal) (φ₁ := .f32) (φ₂ := .f32) dot_S320x1024_S2560x1024_S320x2560_1_1_0_0_n_n none w x (constant (F := Ideal) S320x2560 .f32 0x00000000#32) (ix2 r q)
      = ∑ k : Fin 1024, w (ix2 r k) * x (ix2 q k) := by
  refine (Ideal.matmul_constant_zero_apply dot_S320x1024_S2560x1024_S320x2560_1_1_0_0_n_n none w x (ix2 r q)).trans ?_
  rw [← Equiv.sum_comp (contrEquiv1 dot_S320x1024_S2560x1024_S320x2560_1_1_0_0_n_n 1024 rfl rfl).symm]
  refine Finset.sum_congr rfl fun k _ => ?_
  have hk := contrEquiv1_symm_val dot_S320x1024_S2560x1024_S320x2560_1_1_0_0_n_n 1024 rfl rfl k
  have el : dot_S320x1024_S2560x1024_S320x2560_1_1_0_0_n_n.lhsIdx (ix2 r q) ((contrEquiv1 dot_S320x1024_S2560x1024_S320x2560_1_1_0_0_n_n 1024 rfl rfl).symm k) = ix2 r k := funext fun a => Fin.ext (by
    match a with
    | ⟨0, _⟩ => exact lhs_pay2_0 _ _
    | ⟨1, _⟩ => exact (lhs_pay2_1 _ _).trans hk)
  have er : dot_S320x1024_S2560x1024_S320x2560_1_1_0_0_n_n.rhsIdx (ix2 r q) ((contrEquiv1 dot_S320x1024_S2560x1024_S320x2560_1_1_0_0_n_n 1024 rfl rfl).symm k) = ix2 q k := funext fun a => Fin.ext (by
    match a with
    | ⟨0, _⟩ => exact rhs_pay2_0 _ _
    | ⟨1, _⟩ => exact (rhs_pay2_1 _ _).trans hk)
  rw [el, er]

/-- The bias column, recast to its own shape and broadcast along the rows' 2560 positions, reads its entry of row r. -/
theorem bias_pay2_apply (b : Vec Ideal S320x1 .f32) (r : Fin 320) (q : Fin 2560) :
    broadcastTo S320x2560 (shapeCast S320x1 b shapeCasts_S320x1_S320x1) broadcasts_S320x1_S320x2560 (ix2 r q) = b (ix2 r (0 : Fin 1)) := by
  rw [shapeCast_self]
  refine broadcastTo_apply b broadcasts_S320x1_S320x2560 (ix2 r q) (ix2 r (0 : Fin 1)) fun a => ?_
  match a with
  | ⟨0, _⟩ => show r.val = if (320 : Nat) = 1 then 0 else r.val; rw [if_neg (by decide)]
  | ⟨1, _⟩ => show (0 : Fin 1).val = if (1 : Nat) = 1 then 0 else q.val; rw [if_pos rfl]; rfl

/-! ## The two payloads at an index -/

/-- The classification head's block result at (class r, block row q), over the extended reals: weight row r
    against activation row q of the block, summed over the 1024 features, plus the bias of class r. -/
theorem pay1_apply (v0 : Vec Ideal S2560x1024 .f32) (v1 : Vec Ideal S81x1024 .f32) (v3 : Vec Ideal S81x1 .f32)
    (r : Fin 81) (q : Fin 2560) :
    k0_pay1 (F := Ideal) v0 v1 v3 (ix2 r q) = (∑ k : Fin 1024, v1 (ix2 r k) * v0 (ix2 q k)) + v3 (ix2 r (0 : Fin 1)) := by
  unfold k0_pay1
  show FloatOps.addf (matmul (F := Ideal) (φ₁ := .f32) (φ₂ := .f32) dot_S81x1024_S2560x1024_S81x2560_1_1_0_0_n_n none v1 v0 (constant (F := Ideal) S81x2560 .f32 0x00000000#32) (ix2 r q))
      (broadcastTo S81x2560 (shapeCast S81x1 v3 shapeCasts_S81x1_S81x1) broadcasts_S81x1_S81x2560 (ix2 r q)) = _
  rw [mm_pay1_apply, bias_pay1_apply, Ideal.addf_def]

/-- The box-regression head's block result at (output r, block row q), likewise. -/
theorem pay2_apply (v0 : Vec Ideal S2560x1024 .f32) (v8 : Vec Ideal S320x1024 .f32) (v10 : Vec Ideal S320x1 .f32)
    (r : Fin 320) (q : Fin 2560) :
    k0_pay2 (F := Ideal) v0 v8 v10 (ix2 r q) = (∑ k : Fin 1024, v8 (ix2 r k) * v0 (ix2 q k)) + v10 (ix2 r (0 : Fin 1)) := by
  unfold k0_pay2
  show FloatOps.addf (matmul (F := Ideal) (φ₁ := .f32) (φ₂ := .f32) dot_S320x1024_S2560x1024_S320x2560_1_1_0_0_n_n none v8 v0 (constant (F := Ideal) S320x2560 .f32 0x00000000#32) (ix2 r q))
      (broadcastTo S320x2560 (shapeCast S320x1 v10 shapeCasts_S320x1_S320x1) broadcasts_S320x1_S320x2560 (ix2 r q)) = _
  rw [mm_pay2_apply, bias_pay2_apply, Ideal.addf_def]

end Cert.KernelIdeal.HeadsValue

end
-- ==== Proof.IdealRun.lean ====
import proofs.«102780_g27968827032233_cont_9to1_1234_17_alg».proof.Defs
import proofs.«102780_g27968827032233_cont_9to1_1234_17_alg».proof.Proof.Gen.KernelIdeal.Frame
import proofs.«102780_g27968827032233_cont_9to1_1234_17_alg».proof.Proof.Gen.Pre_finite_inputs
import proofs.«102780_g27968827032233_cont_9to1_1234_17_alg».proof.Proof.HeadsBody
import proofs.«102780_g27968827032233_cont_9to1_1234_17_alg».proof.Proof.IdealData
import proofs.«102780_g27968827032233_cont_9to1_1234_17_alg».proof.Proof.HeadsValue
import Idealize.ShloMosaic.Lib.Pipeline.Kit
import Idealize.ShloMosaic.Lib.Pipeline.FrameSuffix
import Idealize.ShloMosaic.Lib.Tactic

set_option maxRecDepth 16384

noncomputable section

namespace Cert.KernelIdeal.Heads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

open Cert.KernelIdeal Cert.KernelIdeal.Gen ValueIdx

local notation "𝕄" => MT nD τ sig Unit (Elt Ideal) ℕ (UR sig nD τ) ℕ

variable (m : (ℓ : Loc nD τ sig) → Buf (Elt Ideal) ℓ) (ρ : Dev nD → PrngReg)

/-! ## The rows past the array's end reach no column that is written back

Output column `q` of a block is one activation row `q` against the weight rows; the columns written back at a point
are those whose activation row lies inside the array. So whatever fills the activation buffer past the array's end,
the part of each result that is written back is the same. -/

/-- On the part a transfer moves, a filled block does not depend on the filler. -/
theorem fill_congr_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- At every point the activation block's rows inside the array are as many as each output block's columns
    inside its array, and all 1024 features are inside. -/
theorem xsize_rows : ∀ t : Fin cfg0.N, win0_0.xsize (grid0.coords t) 0 = win0_5.xsize (grid0.coords t) 1
    ∧ win0_0.xsize (grid0.coords t) 0 = win0_6.xsize (grid0.coords t) 1 ∧ win0_0.xsize (grid0.coords t) 1 = 1024 :=
  (by decide +kernel : ∀ t : Fin grid0.N, win0_0.xsize (grid0.coords t) 0 = win0_5.xsize (grid0.coords t) 1
    ∧ win0_0.xsize (grid0.coords t) 0 = win0_6.xsize (grid0.coords t) 1 ∧ win0_0.xsize (grid0.coords t) 1 = 1024)

theorem cut_pay1 (t : Fin cfg0.N) (d d' : S2560x1024.Idx → EReal) (g : (win0_0.xblock (grid0.coords t)).Idx → EReal)
    (v1 : Vec Ideal S81x1024 .f32) (v3 : Vec Ideal S81x1 .f32) :
    win0_5.cut (grid0.coords t) (k0_pay1 (F := Ideal) (win0_0.fill (grid0.coords t) d g) v1 v3)
      = win0_5.cut (grid0.coords t) (k0_pay1 (F := Ideal) (win0_0.fill (grid0.coords t) d' g) v1 v3) := by
  funext j
  have h0 : (j 0).val < 81 := Nat.lt_of_lt_of_le (j 0).isLt (win0_5.xsize_le (grid0.coords t) 0)
  have h1 : (j 1).val < 2560 := Nat.lt_of_lt_of_le (j 1).isLt (win0_5.xsize_le (grid0.coords t) 1)
  have e : win0_5.xinj (grid0.coords t) j = ix2 (⟨(j 0).val, h0⟩ : Fin 81) (⟨(j 1).val, h1⟩ : Fin 2560) :=
    funext fun a => Fin.ext (by match a with | ⟨0, _⟩ => rfl | ⟨1, _⟩ => rfl)
  show k0_pay1 (F := Ideal) _ v1 v3 (win0_5.xinj (grid0.coords t) j) = k0_pay1 (F := Ideal) _ v1 v3 (win0_5.xinj (grid0.coords t) j)
  rw [e, HeadsValue.pay1_apply, HeadsValue.pay1_apply]
  congr 1
  refine Finset.sum_congr rfl fun k _ => ?_
  congr 1
  refine fill_congr_moved win0_0 (grid0.coords t) d d' g _ ((win0_0.moved_iff (grid0.coords t) _).mpr fun a => ?_)
  match a with
  | ⟨0, _⟩ => show (j 1).val < win0_0.xsize (grid0.coords t) 0; rw [(xsize_rows t).1]; exact (j 1).isLt
  | ⟨1, _⟩ => show k.val < win0_0.xsize (grid0.coords t) 1; rw [(xsize_rows t).2.2]; exact k.isLt

theorem cut_pay2 (t : Fin cfg0.N) (d d' : S2560x1024.Idx → EReal) (g : (win0_0.xblock (grid0.coords t)).Idx → EReal)
    (v8 : Vec Ideal S320x1024 .f32) (v10 : Vec Ideal S320x1 .f32) :
    win0_6.cut (grid0.coords t) (k0_pay2 (F := Ideal) (win0_0.fill (grid0.coords t) d g) v8 v10)
      = win0_6.cut (grid0.coords t) (k0_pay2 (F := Ideal) (win0_0.fill (grid0.coords t) d' g) v8 v10) := by
  funext j
  have h0 : (j 0).val < 320 := Nat.lt_of_lt_of_le (j 0).isLt (win0_6.xsize_le (grid0.coords t) 0)
  have h1 : (j 1).val < 2560 := Nat.lt_of_lt_of_le (j 1).isLt (win0_6.xsize_le (grid0.coords t) 1)
  have e : win0_6.xinj (grid0.coords t) j = ix2 (⟨(j 0).val, h0⟩ : Fin 320) (⟨(j 1).val, h1⟩ : Fin 2560) :=
    funext fun a => Fin.ext (by match a with | ⟨0, _⟩ => rfl | ⟨1, _⟩ => rfl)
  show k0_pay2 (F := Ideal) _ v8 v10 (win0_6.xinj (grid0.coords t) j) = k0_pay2 (F := Ideal) _ v8 v10 (win0_6.xinj (grid0.coords t) j)
  rw [e, HeadsValue.pay2_apply, HeadsValue.pay2_apply]
  congr 1
  refine Finset.sum_congr rfl fun k _ => ?_
  congr 1
  refine fill_congr_moved win0_0 (grid0.coords t) d d' g _ ((win0_0.moved_iff (grid0.coords t) _).mpr fun a => ?_)
  match a with
  | ⟨0, _⟩ => show (j 1).val < win0_0.xsize (grid0.coords t) 0; rw [(xsize_rows t).2.1]; exact (j 1).isLt
  | ⟨1, _⟩ => show k.val < win0_0.xsize (grid0.coords t) 1; rw [(xsize_rows t).2.2]; exact k.isLt

/-- A buffer holding `X` holds, for some filler, the written-back part of `Y` filled out — whenever `X` and `Y`
    agree on the written-back part. -/
theorem leaves_of_cut_eq {G : Pipeline.Grid} (w : Window sig G) (i : G.Coords) (c : Dev nD) {sp : Space}
    (M : Memref sig .tc sp w.block w.elt) (X Y : w.block.Idx → Elt Ideal w.elt) (h : w.cut i X = w.cut i Y) :
    owns (c : Thread nD τ) M fullShare X ⊢ (iprop(∃ d, owns (c : Thread nD τ) M fullShare (w.fill i d (w.cut i Y))) : sProp 𝕄) := by
  iintro H; iexists X; rw [w.fill_congr_cut i h]; iexact H

set_option maxRecDepth 16384 in
set_option maxHeartbeats 1000000 in
theorem body_obligation (c : Dev nD) :
    BodyObligationLoose (dats (F := Ideal) m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before0_0 m c t d0, before0_1 m c t d1, before0_2 m c t d2, before0_3 m c t d3, before0_4 m c t d4,
    after0_0, after0_1, after0_2, after0_3, after0_4, after0_5, after0_6]
  iapply (sound_kernel (F := Ideal) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6))
    (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  have hx : win0_0.cut (grid0.coords t) (xfill m c t) = iblk m c 0 t := win0_0.cut_fill _ _ _
  have e5 : win0_5.cut (grid0.coords t) (k0_pay1 (F := Ideal) (win0_0.fill (grid0.coords t) d0 (iblk m c 0 t)) (iblk m c 1 t) (iblk m c 3 t))
      = win0_5.cut (grid0.coords t) (k0_pay1 (F := Ideal) (xfill m c t) (iblk m c 1 t) (iblk m c 3 t)) :=
    cut_pay1 t d0 _ (iblk m c 0 t) (iblk m c 1 t) (iblk m c 3 t)
  have e6 : win0_6.cut (grid0.coords t) (k0_pay2 (F := Ideal) (win0_0.fill (grid0.coords t) d0 (iblk m c 0 t)) (iblk m c 2 t) (iblk m c 4 t))
      = win0_6.cut (grid0.coords t) (k0_pay2 (F := Ideal) (xfill m c t) (iblk m c 2 t) (iblk m c 4 t)) :=
    cut_pay2 t d0 _ (iblk m c 0 t) (iblk m c 2 t) (iblk m c 4 t)
  isplitl [H0]
  · iexists d0
    change _ ⊢ owns (c : Thread nD τ) (stage0_0 (cfg0.slots t 0)) fullShare
      (win0_0.fill (grid0.coords t) d0 (win0_0.cut (grid0.coords t) (xfill m c t)))
    rw [hx]; try iexact H0
  isplitl [H1]; · iexact H1
  isplitl [H2]; · iexact H2
  isplitl [H3]; · iexact H3
  isplitl [H4]; · iexact H4
  isplitl [H5]
  · iapply (leaves_of_cut_eq (win0 5) (grid0.coords t) c _ _ _ e5)
    iexact H5
  · iapply (leaves_of_cut_eq (win0 6) (grid0.coords t) c _ _ _ e6)
    iexact H6

/-! ## The run and the frame -/

set_option backward.isDefEq.respectTransparency.types false in
/-- Every weakly fair run of @main ends; every array of the pipeline ends at what the write-backs leave
    (`Dat.arrAt`), every other buffer at what the two transposes after the region leave. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) sfx_sub sfx_fresh sfx_keeps
    (hmain := hmain m Variants.none) (hA := A_eq m) (hΦ := fun _ _ => rfl)

/-- The idealized kernel's frame. -/
theorem frame : Cert.frame_KernelIdeal := fun m ρ _ =>
  frame_of m ρ (dats m) (A_eq m) (run_main m ρ)

end Cert.KernelIdeal.Heads

end
-- ==== Proof.IdealFinal.lean ====
import proofs.«102780_g27968827032233_cont_9to1_1234_17_alg».proof.Proof.Gen.KernelIdeal.Frame
import proofs.«102780_g27968827032233_cont_9to1_1234_17_alg».proof.Proof.Gen.KernelIdeal.Points
import proofs.«102780_g27968827032233_cont_9to1_1234_17_alg».proof.Proof.IdealData
import proofs.«102780_g27968827032233_cont_9to1_1234_17_alg».proof.Proof.HeadsValue
import Idealize.ShloMosaic.Lib.Pipeline.Kit
import Idealize.ShloMosaic.Lib.Pipeline.Value
import Idealize.ShloMosaic.Lib.ValueIdx

set_option maxRecDepth 16384

noncomputable section

namespace Cert.KernelIdeal.Heads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

open Cert.KernelIdeal Cert.KernelIdeal.Gen ValueIdx

variable (m : (ℓ : Loc nD τ sig) → Buf (Elt Ideal) ℓ)

/-- One head in the kernel's own layout, outputs by rows and activations by columns: entry (r, n) is weight row r
    against activation row n, summed over the 1024 features, plus the bias column's entry r. -/
def headCN {C : Nat} (X : FVec Ideal ⟨2, ![20000, 1024]⟩ .f32) (W : FVec Ideal ⟨2, ![C, 1024]⟩ .f32)
    (bcol : FVec Ideal ⟨2, ![C, 1]⟩ .f32) : FVec Ideal ⟨2, ![C, 20000]⟩ .f32 :=
  fun i => (∑ k : Fin 1024, W (ix2 (i 0) k) * X (ix2 (i 1) k)) + bcol (ix2 (i 0) (0 : Fin 1))

/-! ## The index maps and the cut sizes at the eight points

The activation window and the two output windows move with the point (block index t on the long axis), the weights and
the bias columns stay at block (0, 0); the long axis is cut alike in all three moving windows: 2560 at points 0 to 6
and 2080 at point 7, so that blocks 0 to t together reach min 20000 (2560 (t + 1)). -/

/-- The block index of every window at every point. -/
theorem idx_facts : ∀ t : Fin cfg0.N,
    win0_0.index t 0 = t.val ∧ win0_0.index t 1 = 0
    ∧ win0_1.index t 0 = 0 ∧ win0_1.index t 1 = 0
    ∧ win0_2.index t 0 = 0 ∧ win0_2.index t 1 = 0
    ∧ win0_3.index t 0 = 0 ∧ win0_3.index t 1 = 0
    ∧ win0_4.index t 0 = 0 ∧ win0_4.index t 1 = 0
    ∧ win0_5.index t 0 = 0 ∧ win0_5.index t 1 = t.val
    ∧ win0_6.index t 0 = 0 ∧ win0_6.index t 1 = t.val :=
  (by decide +kernel : ∀ t : Fin grid0.N,
    win0_0.index t 0 = t.val ∧ win0_0.index t 1 = 0
    ∧ win0_1.index t 0 = 0 ∧ win0_1.index t 1 = 0
    ∧ win0_2.index t 0 = 0 ∧ win0_2.index t 1 = 0
    ∧ win0_3.index t 0 = 0 ∧ win0_3.index t 1 = 0
    ∧ win0_4.index t 0 = 0 ∧ win0_4.index t 1 = 0
    ∧ win0_5.index t 0 = 0 ∧ win0_5.index t 1 = t.val
    ∧ win0_6.index t 0 = 0 ∧ win0_6.index t 1 = t.val)

/-- The cut sizes at every point: the activation rows and the two outputs' columns are cut alike, the short axes are
    whole, and point t's columns end at min 20000 (2560 (t + 1)). -/
theorem size_facts : ∀ t : Fin cfg0.N,
    win0_0.xsize (grid0.coords t) 0 = win0_5.xsize (grid0.coords t) 1
    ∧ win0_6.xsize (grid0.coords t) 1 = win0_5.xsize (grid0.coords t) 1
    ∧ win0_0.xsize (grid0.coords t) 1 = 1024
    ∧ win0_5.xsize (grid0.coords t) 0 = 81
    ∧ win0_6.xsize (grid0.coords t) 0 = 320
    ∧ win0_5.xsize (grid0.coords t) 1 ≤ 2560
    ∧ t.val * 2560 + win0_5.xsize (grid0.coords t) 1 = min 20000 ((t.val + 1) * 2560) :=
  (by decide +kernel : ∀ t : Fin grid0.N,
    win0_0.xsize (grid0.coords t) 0 = win0_5.xsize (grid0.coords t) 1
    ∧ win0_6.xsize (grid0.coords t) 1 = win0_5.xsize (grid0.coords t) 1
    ∧ win0_0.xsize (grid0.coords t) 1 = 1024
    ∧ win0_5.xsize (grid0.coords t) 0 = 81
    ∧ win0_6.xsize (grid0.coords t) 0 = 320
    ∧ win0_5.xsize (grid0.coords t) 1 ≤ 2560
    ∧ t.val * 2560 + win0_5.xsize (grid0.coords t) 1 = min 20000 ((t.val + 1) * 2560))

/-! ## The blocks read off their arrays, at an index -/

/-- A weight block is the whole weight array: its block index is zero on both axes. -/
theorem iblk1_apply (c : Dev nD) (t : Fin cfg0.N) (r : Fin 81) (k : Fin 1024) :
    (iblk m c 1 t : Vec Ideal S81x1024 .f32) (ix2 r k) = (V m c main_arg1 : S81x1024.Idx → Elt Ideal .f32) (ix2 r k) := by
  obtain ⟨-, -, h0, h1, -⟩ := idx_facts t
  unfold iblk
  rw [View.read_apply]
  show V m c main_arg1 _ = V m c main_arg1 _
  refine congrArg _ (funext fun a => Fin.ext ?_)
  match a with
  | ⟨0, _⟩ => show win0_1.index t 0 * 81 + 1 * r.val = r.val; rw [h0]; omega
  | ⟨1, _⟩ => show win0_1.index t 1 * 1024 + 1 * k.val = k.val; rw [h1]; omega

/-- Inside the array, row q of the filled activation block at point t is row 2560 t + q of the activations. -/
theorem xfill_apply (c : Dev nD) (t : Fin cfg0.N) (q : Fin 2560) (k : Fin 1024) (n : Fin 20000)
    (hq : q.val < win0_0.xsize (grid0.coords t) 0) (hn : n.val = t.val * 2560 + q.val) :
    (xfill m c t : Vec Ideal S2560x1024 .f32) (ix2 q k) = (V m c main_arg0 : S20000x1024.Idx → Elt Ideal .f32) (ix2 n k) := by
  obtain ⟨h0, h1, -⟩ := idx_facts t
  obtain ⟨-, -, hs1, -⟩ := size_facts t
  have hm : win0_0.moved (grid0.coords t) (ix2 q k) = true :=
    (win0_0.moved_iff _ _).mpr fun a => by
      match a with
      | ⟨0, _⟩ => exact hq
      | ⟨1, _⟩ => show k.val < win0_0.xsize (grid0.coords t) 1; rw [hs1]; exact k.isLt
  unfold xfill Window.fill
  rw [dif_pos hm]
  unfold iblk
  rw [View.read_apply]
  show V m c main_arg0 _ = V m c main_arg0 _
  refine congrArg _ (funext fun a => Fin.ext ?_)
  match a with
  | ⟨0, _⟩ => show win0_0.index t 0 * 2560 + 1 * q.val = n.val; rw [h0, hn]; omega
  | ⟨1, _⟩ => show win0_0.index t 1 * 1024 + 1 * k.val = k.val; rw [h1]; omega

/-- A bias block is the whole bias column. -/
theorem iblk3_apply (c : Dev nD) (t : Fin cfg0.N) (r : Fin 81) (z : Fin 1) :
    (iblk m c 3 t : Vec Ideal S81x1 .f32) (ix2 r z) = (V m c main_call0_v0 : S81x1.Idx → Elt Ideal .f32) (ix2 r z) := by
  obtain ⟨-, -, -, -, -, -, h0, h1, -⟩ := idx_facts t
  unfold iblk
  rw [View.read_apply]
  show V m c main_call0_v0 _ = V m c main_call0_v0 _
  refine congrArg _ (funext fun a => Fin.ext ?_)
  match a with
  | ⟨0, _⟩ => show win0_3.index t 0 * 81 + 1 * r.val = r.val; rw [h0]; omega
  | ⟨1, _⟩ => show win0_3.index t 1 * 1 + 1 * z.val = z.val; rw [h1]; omega

/-! ## The classification head: each write-back is a block of the head, and the blocks cover the array -/

/-- The part of a class-score block that is written back, at an index: the block at the same coordinates. -/
theorem cut5_apply (t : Fin cfg0.N) (P : Vec Ideal S81x2560 .f32) (y : (win0_5.xblock (grid0.coords t)).Idx)
    (r : Fin 81) (q : Fin 2560) (hr : r.val = (y 0).val) (hq : q.val = (y 1).val) :
    win0_5.cut (grid0.coords t) P y = P (ix2 r q) :=
  congrArg P (funext fun a => Fin.ext (by
    match a with
    | ⟨0, _⟩ => exact hr.symm
    | ⟨1, _⟩ => exact hq.symm))

/-- The head at an index whose coordinates are r and n. -/
theorem headCN_apply {C : Nat} (X : FVec Ideal ⟨2, ![20000, 1024]⟩ .f32) (W : FVec Ideal ⟨2, ![C, 1024]⟩ .f32)
    (bcol : FVec Ideal ⟨2, ![C, 1]⟩ .f32) (i : (⟨2, ![C, 20000]⟩ : Shape).Idx) (r : Fin C) (n : Fin 20000)
    (hr : (i 0).val = r.val) (hn : (i 1).val = n.val) :
    headCN X W bcol i = (∑ k : Fin 1024, W (ix2 r k) * X (ix2 n k)) + bcol (ix2 r (0 : Fin 1)) := by
  obtain rfl : r = i 0 := Fin.ext hr.symm
  obtain rfl : n = i 1 := Fin.ext hn.symm
  rfl

/-- What point t writes back to the class scores is block t of the head. -/
theorem flushed5_eq (c : Dev nD) (t : Fin cfg0.N) :
    (dats m 0 c).flushed 5 t = ((cfg0.win 5).blk t).view.read (Elt Ideal)
      (headCN (C := 81) (V m c main_arg0) (V m c main_arg1) (V m c main_call0_v0)) := by
  obtain ⟨-, -, -, -, -, -, -, -, -, -, hi0, hi1, -⟩ := idx_facts t
  obtain ⟨hx, -, -, hs0, -, hle, hsum⟩ := size_facts t
  funext y
  have hy0 : (y 0).val < 81 := hs0 ▸ (y 0).isLt
  have hy1 : (y 1).val < win0_5.xsize (grid0.coords t) 1 := (y 1).isLt
  have hy1' : (y 1).val < 2560 := Nat.lt_of_lt_of_le hy1 hle
  have hn : t.val * 2560 + (y 1).val < 20000 := by omega
  have e0 : ((win0_5.rect t).emb y 0 : Nat) = (y 0).val := win0_5.rect_emb_val_of_index_zero t 0 hi0 y
  have e1 : ((win0_5.rect t).emb y 1 : Nat) = t.val * 2560 + (y 1).val := by
    rw [win0_5.rect_emb_val t y 1, hi1]; rfl
  show (cfg0.win 5).cut (grid0.coords t) ((dats m 0 c).after 5 t) y = _
  rw [after0_5]
  refine (cut5_apply t _ y ⟨(y 0).val, hy0⟩ ⟨(y 1).val, hy1'⟩ rfl rfl).trans ?_
  rw [HeadsValue.pay1_apply, View.read_apply]
  show _ = headCN (C := 81) (V m c main_arg0) (V m c main_arg1) (V m c main_call0_v0) ((win0_5.rect t).emb y)
  rw [headCN_apply _ _ _ _ ⟨(y 0).val, hy0⟩ ⟨t.val * 2560 + (y 1).val, hn⟩ e0 e1, iblk3_apply]
  refine congrArg (· + _) (Finset.sum_congr rfl fun k _ => ?_)
  rw [iblk1_apply, xfill_apply m c t _ k ⟨t.val * 2560 + (y 1).val, hn⟩ (by rw [hx]; exact hy1) rfl]

/-- Every entry of the class scores lies in the block of the point its column divided by 2560 names. -/
theorem cover5 (i : S81x20000.Idx) :
    ∃ t : Fin cfg0.N, (cfg0.win 5).flush t = true ∧ i ∈ ((cfg0.win 5).blk t).view.set := by
  have hN : cfg0.N = 8 := N_0
  have h0 : (i 0).val < 81 := (i 0).isLt
  have h1 : (i 1).val < 20000 := (i 1).isLt
  have ht : (i 1).val / 2560 < cfg0.N := by rw [hN]; omega
  refine ⟨⟨(i 1).val / 2560, ht⟩, flush0_5 _, ?_⟩
  generalize hte : (⟨(i 1).val / 2560, ht⟩ : Fin cfg0.N) = t
  have htv : t.val = (i 1).val / 2560 := by rw [← hte]
  obtain ⟨-, -, -, -, -, -, -, -, -, -, hi0, hi1, -⟩ := idx_facts t
  obtain ⟨-, -, -, hs0, -, -, hsum⟩ := size_facts t
  show i ∈ ((View.whole main_call0_v2_0).slice (win0_5.rect t)).set
  rw [View.set_slice_whole, Rect.mem_set_unit]
  intro a
  match a with
  | ⟨0, _⟩ =>
    show win0_5.index t 0 * 81 ≤ (i 0).val ∧ (i 0).val < win0_5.index t 0 * 81 + win0_5.xsize (grid0.coords t) 0
    rw [hi0, hs0]; omega
  | ⟨1, _⟩ =>
    show win0_5.index t 1 * 2560 ≤ (i 1).val ∧ (i 1).val < win0_5.index t 1 * 2560 + win0_5.xsize (grid0.coords t) 1
    rw [hi1]; omega

/-- After the eight write-backs the class-score array holds the classification head of the arrays the region found:
    every column lies in exactly one point's block (column n in point n / 2560), and what a point writes back is the
    head on its columns. -/
theorem final5 (c : Dev nD) :
    (dats m 0 c).arrAt 5 cfg0.N = headCN (C := 81) (V m c main_arg0) (V m c main_arg1) (V m c main_call0_v0) :=
  (dats m 0 c).arrAt_eq_of_cover 5 _ (fun t _ => flushed5_eq m c t) cover5

/-! ## The box-delta head: the same at 320 rows -/

/-- A box-delta weight block is the whole weight array. -/
theorem iblk2_apply (c : Dev nD) (t : Fin cfg0.N) (r : Fin 320) (k : Fin 1024) :
    (iblk m c 2 t : Vec Ideal S320x1024 .f32) (ix2 r k) = (V m c main_arg3 : S320x1024.Idx → Elt Ideal .f32) (ix2 r k) := by
  obtain ⟨-, -, -, -, h0, h1, -⟩ := idx_facts t
  unfold iblk
  rw [View.read_apply]
  show V m c main_arg3 _ = V m c main_arg3 _
  refine congrArg _ (funext fun a => Fin.ext ?_)
  match a with
  | ⟨0, _⟩ => show win0_2.index t 0 * 320 + 1 * r.val = r.val; rw [h0]; omega
  | ⟨1, _⟩ => show win0_2.index t 1 * 1024 + 1 * k.val = k.val; rw [h1]; omega

/-- A box-delta bias block is the whole bias column. -/
theorem iblk4_apply (c : Dev nD) (t : Fin cfg0.N) (r : Fin 320) (z : Fin 1) :
    (iblk m c 4 t : Vec Ideal S320x1 .f32) (ix2 r z) = (V m c main_call0_v1 : S320x1.Idx → Elt Ideal .f32) (ix2 r z) := by
  obtain ⟨-, -, -, -, -, -, -, -, h0, h1, -⟩ := idx_facts t
  unfold iblk
  rw [View.read_apply]
  show V m c main_call0_v1 _ = V m c main_call0_v1 _
  refine congrArg _ (funext fun a => Fin.ext ?_)
  match a with
  | ⟨0, _⟩ => show win0_4.index t 0 * 320 + 1 * r.val = r.val; rw [h0]; omega
  | ⟨1, _⟩ => show win0_4.index t 1 * 1 + 1 * z.val = z.val; rw [h1]; omega

/-- The part of a box-delta block that is written back, at an index: the block at the same coordinates. -/
theorem cut6_apply (t : Fin cfg0.N) (P : Vec Ideal S320x2560 .f32) (y : (win0_6.xblock (grid0.coords t)).Idx)
    (r : Fin 320) (q : Fin 2560) (hr : r.val = (y 0).val) (hq : q.val = (y 1).val) :
    win0_6.cut (grid0.coords t) P y = P (ix2 r q) :=
  congrArg P (funext fun a => Fin.ext (by
    match a with
    | ⟨0, _⟩ => exact hr.symm
    | ⟨1, _⟩ => exact hq.symm))

/-- What point t writes back to the box deltas is block t of the head. -/
theorem flushed6_eq (c : Dev nD) (t : Fin cfg0.N) :
    (dats m 0 c).flushed 6 t = ((cfg0.win 6).blk t).view.read (Elt Ideal)
      (headCN (C := 320) (V m c main_arg0) (V m c main_arg3) (V m c main_call0_v1)) := by
  obtain ⟨-, -, -, -, -, -, -, -, -, -, -, -, hi0, hi1⟩ := idx_facts t
  obtain ⟨hx, hx6, -, -, hs0, hle, hsum⟩ := size_facts t
  funext y
  have hy0 : (y 0).val < 320 := hs0 ▸ (y 0).isLt
  have hy1 : (y 1).val < win0_5.xsize (grid0.coords t) 1 := hx6 ▸ (y 1).isLt
  have hy1' : (y 1).val < 2560 := Nat.lt_of_lt_of_le hy1 hle
  have hn : t.val * 2560 + (y 1).val < 20000 := by omega
  have e0 : ((win0_6.rect t).emb y 0 : Nat) = (y 0).val := win0_6.rect_emb_val_of_index_zero t 0 hi0 y
  have e1 : ((win0_6.rect t).emb y 1 : Nat) = t.val * 2560 + (y 1).val := by
    rw [win0_6.rect_emb_val t y 1, hi1]; rfl
  show (cfg0.win 6).cut (grid0.coords t) ((dats m 0 c).after 6 t) y = _
  rw [after0_6]
  refine (cut6_apply t _ y ⟨(y 0).val, hy0⟩ ⟨(y 1).val, hy1'⟩ rfl rfl).trans ?_
  rw [HeadsValue.pay2_apply, View.read_apply]
  show _ = headCN (C := 320) (V m c main_arg0) (V m c main_arg3) (V m c main_call0_v1) ((win0_6.rect t).emb y)
  rw [headCN_apply _ _ _ _ ⟨(y 0).val, hy0⟩ ⟨t.val * 2560 + (y 1).val, hn⟩ e0 e1, iblk4_apply]
  refine congrArg (· + _) (Finset.sum_congr rfl fun k _ => ?_)
  rw [iblk2_apply, xfill_apply m c t _ k ⟨t.val * 2560 + (y 1).val, hn⟩ (by rw [hx]; exact hy1) rfl]

/-- Every entry of the box deltas lies in the block of the point its column divided by 2560 names. -/
theorem cover6 (i : S320x20000.Idx) :
    ∃ t : Fin cfg0.N, (cfg0.win 6).flush t = true ∧ i ∈ ((cfg0.win 6).blk t).view.set := by
  have hN : cfg0.N = 8 := N_0
  have h0 : (i 0).val < 320 := (i 0).isLt
  have h1 : (i 1).val < 20000 := (i 1).isLt
  have ht : (i 1).val / 2560 < cfg0.N := by rw [hN]; omega
  refine ⟨⟨(i 1).val / 2560, ht⟩, flush0_6 _, ?_⟩
  generalize hte : (⟨(i 1).val / 2560, ht⟩ : Fin cfg0.N) = t
  have htv : t.val = (i 1).val / 2560 := by rw [← hte]
  obtain ⟨-, -, -, -, -, -, -, -, -, -, -, -, hi0, hi1⟩ := idx_facts t
  obtain ⟨-, hx6, -, -, hs0, -, hsum⟩ := size_facts t
  show i ∈ ((View.whole main_call0_v2_1).slice (win0_6.rect t)).set
  rw [View.set_slice_whole, Rect.mem_set_unit]
  intro a
  match a with
  | ⟨0, _⟩ =>
    show win0_6.index t 0 * 320 ≤ (i 0).val ∧ (i 0).val < win0_6.index t 0 * 320 + win0_6.xsize (grid0.coords t) 0
    rw [hi0, hs0]; omega
  | ⟨1, _⟩ =>
    show win0_6.index t 1 * 2560 ≤ (i 1).val ∧ (i 1).val < win0_6.index t 1 * 2560 + win0_6.xsize (grid0.coords t) 1
    rw [hi1, hx6]; omega

/-- The box-delta array likewise. -/
theorem final6 (c : Dev nD) :
    (dats m 0 c).arrAt 6 cfg0.N = headCN (C := 320) (V m c main_arg0) (V m c main_arg3) (V m c main_call0_v1) :=
  (dats m 0 c).arrAt_eq_of_cover 6 _ (fun t _ => flushed6_eq m c t) cover6

end Cert.KernelIdeal.Heads

end
-- ==== Proof.Spec.lean ====
import Idealize.ShloMosaic.PureOps.Ideal
import Idealize.ShloMosaic.Lib.ValueIdx

noncomputable section

namespace Cert.Heads

open Idealize.ShloMosaic ValueIdx

/-- One linear head over the extended reals: entry (n, c) of the result is the sum over the feature axis of
    activation row n against weight row c, plus the bias of class c. Both programs compute this for the
    classification head (81 classes) and for the box-regression head (320 outputs) of one activation matrix. -/
def linearHead {N C D : Nat} (x : FVec Ideal ⟨2, ![N, D]⟩ .f32) (W : FVec Ideal ⟨2, ![C, D]⟩ .f32) (b : FVec Ideal ⟨1, ![C]⟩ .f32) :
    FVec Ideal ⟨2, ![N, C]⟩ .f32 :=
  fun i => (∑ k : Fin D, x (ix2 (i 0) k) * W (ix2 (i 1) k)) + b (ix1 (i 1))

theorem linearHead_apply {N C D : Nat} (x : FVec Ideal ⟨2, ![N, D]⟩ .f32) (W : FVec Ideal ⟨2, ![C, D]⟩ .f32) (b : FVec Ideal ⟨1, ![C]⟩ .f32)
    (n : Fin N) (c : Fin C) :
    linearHead x W b (ix2 n c) = (∑ k : Fin D, x (ix2 n k) * W (ix2 c k)) + b (ix1 c) := rfl

end Cert.Heads

end
-- ==== Proof.LibColumns.lean ====
/-
  Column forms of the layout operations, read at an index written by coordinates.

  A vector of `a` numbers is kept as a column `[a, 1]`, as a block `[1, a, 1]`, or flat `[a]`; a shape cast between these
  keeps the row-major position, which is the one coordinate `i` in every form. A column broadcast to `[a, b]` reads, at
  `(i, j)`, the column's entry `i`. The extents are arbitrary; every index is built by `ix1`, `ix2`, `ix3`.
-/
import Idealize.ShloMosaic.Lib.ValueIdx
import Idealize.ShloMosaic.Lib.Pipeline.Value

noncomputable section

namespace Cert.Lib.Columns

open Idealize.ShloMosaic Idealize.ShloMosaic.ValueIdx

variable {α : Type}

/-- `[1, a, 1]` cast to `[a]`: at `i` the operand at `(0, i, 0)`. -/
theorem shapeCast_1a1_a_apply {a : ℕ} (x : (⟨3, ![1, a, 1]⟩ : Shape).Idx → α)
    (h : (⟨3, ![1, a, 1]⟩ : Shape).ShapeCasts ⟨1, ![a]⟩) (i : Fin a) :
    shapeCast ⟨1, ![a]⟩ x h (ix1 i) = x (ix3 (0 : Fin 1) i (0 : Fin 1)) :=
  shapeCast_apply x h _ _ (by
    rw [Shape.rowMajor_val_three, Shape.rowMajor_val_one]
    show (0 * a + i.val) * 1 + 0 = i.val
    omega)

/-- `[a]` cast to `[1, a, 1]`: at `(u, i, v)` the operand at `i`. -/
theorem shapeCast_a_1a1_apply {a : ℕ} (x : (⟨1, ![a]⟩ : Shape).Idx → α)
    (h : (⟨1, ![a]⟩ : Shape).ShapeCasts ⟨3, ![1, a, 1]⟩) (u : Fin 1) (i : Fin a) (v : Fin 1) :
    shapeCast ⟨3, ![1, a, 1]⟩ x h (ix3 u i v) = x (ix1 i) :=
  shapeCast_apply x h _ _ (by
    have hu : u.val = 0 := by omega
    have hv : v.val = 0 := by omega
    rw [Shape.rowMajor_val_three, Shape.rowMajor_val_one]
    show i.val = (u.val * a + i.val) * 1 + v.val
    rw [hu, hv]
    omega)

/-- `[a]` cast to the column `[a, 1]`: at `(i, u)` the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]
    omega)

/-- A column `[a, 1]` broadcast to `[a, b]`: at `(i, j)` the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.Lib.Columns

end
-- ==== Proof.IdealResult.lean ====
import proofs.«102780_g27968827032233_cont_9to1_1234_17_alg».proof.Defs
import proofs.«102780_g27968827032233_cont_9to1_1234_17_alg».proof.Proof.Gen.KernelIdeal.Frame
import proofs.«102780_g27968827032233_cont_9to1_1234_17_alg».proof.Proof.IdealData
import proofs.«102780_g27968827032233_cont_9to1_1234_17_alg».proof.Proof.IdealFinal
import proofs.«102780_g27968827032233_cont_9to1_1234_17_alg».proof.Proof.Spec
import proofs.«102780_g27968827032233_cont_9to1_1234_17_alg».proof.Proof.LibColumns
import Idealize.ShloMosaic.Lib.Pipeline.Kit
import Idealize.ShloMosaic.Lib.Pipeline.FrameSuffix
import Idealize.ShloMosaic.Lib.Pipeline.Value
import Idealize.ShloMosaic.Lib.StableHlo.Run
import Idealize.ShloMosaic.Lib.ValueIdx

set_option maxRecDepth 16384

noncomputable section

namespace Cert.KernelIdeal.Heads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

open Cert.KernelIdeal Cert.KernelIdeal.Gen ValueIdx

variable (m : (ℓ : Loc nD τ sig) → Buf (Elt Ideal) ℓ)

/-! ## The bias columns the region finds, and the results after the two transposes -/

/-- The class bias as a column: the host reshape of the bias vector before the region. -/
theorem V_bias_cls (c : Dev nD) :
    V m c main_call0_v0 = shapeCast S81x1 (m ((c : Thread nD τ).loc main_arg2)) shapeCasts_S81_S81x1 := by
  show StableHlo.after hostOps0 (fun b => m (c, b)) (Proc.devRef .tc main_call0_v0) = _
  after_results
  rfl

/-- The box bias as a column likewise. -/
theorem V_bias_box (c : Dev nD) :
    V m c main_call0_v1 = shapeCast S320x1 (m ((c : Thread nD τ).loc main_arg4)) shapeCasts_S320_S320x1 := by
  show StableHlo.after hostOps0 (fun b => m (c, b)) (Proc.devRef .tc main_call0_v1) = _
  after_results
  rfl

/-- The first result is the transpose of the class-score array the region leaves. -/
theorem result0 (c : Dev nD) : Pipeline.afterTail₀ cfgs (dats m) 0 (V0 m) [hostOps1] c main_v0_0
    = transpose S20000x81 [1, 0] ((dats m 0 c).arrAt 5 cfg0.N) transposes_S81x20000_S20000x81_1_0 := by
  unfold Pipeline.afterTail₀
  show StableHlo.after hostOps1 _ (Proc.devRef .tc main_v0_0) = _
  after_results
  have e := Pipeline.withArrays_arr spec0 launch0.win.arr_inj c (V0 m c) (fun w => (dats m 0 c).arrAt w cfg0.N) 5
  show transpose S20000x81 [1, 0] (Pipeline.withArrays spec0 c (V0 m c) (fun w => (dats m 0 c).arrAt w cfg0.N)
    (Proc.devRef .tc (Pipeline.arrRef spec0 5))) transposes_S81x20000_S20000x81_1_0 = _
  rw [e]

/-- The second result is the transpose of the box-delta array the region leaves. -/
theorem result1 (c : Dev nD) : Pipeline.afterTail₀ cfgs (dats m) 0 (V0 m) [hostOps1] c main_v0_1
    = transpose S20000x320 [1, 0] ((dats m 0 c).arrAt 6 cfg0.N) transposes_S320x20000_S20000x320_1_0 := by
  unfold Pipeline.afterTail₀
  show StableHlo.after hostOps1 _ (Proc.devRef .tc main_v0_1) = _
  after_results
  have e := Pipeline.withArrays_arr spec0 launch0.win.arr_inj c (V0 m c) (fun w => (dats m 0 c).arrAt w cfg0.N) 6
  show transpose S20000x320 [1, 0] (Pipeline.withArrays spec0 c (V0 m c) (fun w => (dats m 0 c).arrAt w cfg0.N)
    (Proc.devRef .tc (Pipeline.arrRef spec0 6))) transposes_S320x20000_S20000x320_1_0 = _
  rw [e]

/-! ## The transposed head is the linear head

Entry (n, r) of the transpose is entry (r, n) of the kernel's array: weight row r against activation row n plus
the bias of r; the products commute, and the bias column's entry r is the bias vector's. -/

theorem transpose_head81 (X : FVec Ideal S20000x1024 .f32) (W : FVec Ideal S81x1024 .f32) (b : FVec Ideal S81 .f32) :
    transpose S20000x81 [1, 0] (headCN (C := 81) X W (shapeCast S81x1 b shapeCasts_S81_S81x1)) transposes_S81x20000_S20000x81_1_0
      = Cert.Heads.linearHead (N := 20000) (C := 81) (D := 1024) X W b := by
  funext i
  obtain ⟨n, r, rfl⟩ : ∃ (n : Fin 20000) (r : Fin 81), i = ix2 n r := ⟨i 0, i 1, eq_ix2 i⟩
  rw [transpose_apply [1, 0] _ transposes_S81x20000_S20000x81_1_0 (ix2 n r) (ix2 r n) (fun a => match a with
    | ⟨0, _⟩ => rfl
    | ⟨1, _⟩ => rfl)]
  show (∑ k : Fin 1024, W (ix2 r k) * X (ix2 n k)) + shapeCast S81x1 b shapeCasts_S81_S81x1 (ix2 r (0 : Fin 1))
    = (∑ k : Fin 1024, X (ix2 n k) * W (ix2 r k)) + b (ix1 r)
  rw [Cert.Lib.Columns.shapeCast_a_a1_apply b shapeCasts_S81_S81x1 r 0]
  exact congrArg (· + b (ix1 r)) (Finset.sum_congr rfl fun k _ => mul_comm _ _)

theorem transpose_head320 (X : FVec Ideal S20000x1024 .f32) (W : FVec Ideal S320x1024 .f32) (b : FVec Ideal S320 .f32) :
    transpose S20000x320 [1, 0] (headCN (C := 320) X W (shapeCast S320x1 b shapeCasts_S320_S320x1)) transposes_S320x20000_S20000x320_1_0
      = Cert.Heads.linearHead (N := 20000) (C := 320) (D := 1024) X W b := by
  funext i
  obtain ⟨n, r, rfl⟩ : ∃ (n : Fin 20000) (r : Fin 320), i = ix2 n r := ⟨i 0, i 1, eq_ix2 i⟩
  rw [transpose_apply [1, 0] _ transposes_S320x20000_S20000x320_1_0 (ix2 n r) (ix2 r n) (fun a => match a with
    | ⟨0, _⟩ => rfl
    | ⟨1, _⟩ => rfl)]
  show (∑ k : Fin 1024, W (ix2 r k) * X (ix2 n k)) + shapeCast S320x1 b shapeCasts_S320_S320x1 (ix2 r (0 : Fin 1))
    = (∑ k : Fin 1024, X (ix2 n k) * W (ix2 r k)) + b (ix1 r)
  rw [Cert.Lib.Columns.shapeCast_a_a1_apply b shapeCasts_S320_S320x1 r 0]
  exact congrArg (· + b (ix1 r)) (Finset.sum_congr rfl fun k _ => mul_comm _ _)

/-- The two results in closed form: the linear heads of the launch arrays. -/
theorem result0_eq (c : Dev nD) : Pipeline.afterTail₀ cfgs (dats m) 0 (V0 m) [hostOps1] c main_v0_0
    = Cert.Heads.linearHead (N := 20000) (C := 81) (D := 1024) (m ((c : Thread nD τ).loc main_arg0))
        (m ((c : Thread nD τ).loc main_arg1)) (m ((c : Thread nD τ).loc main_arg2)) := by
  rw [result0, final5, V_bias_cls, V_main_arg0, V_main_arg1]
  exact transpose_head81 _ _ _

theorem result1_eq (c : Dev nD) : Pipeline.afterTail₀ cfgs (dats m) 0 (V0 m) [hostOps1] c main_v0_1
    = Cert.Heads.linearHead (N := 20000) (C := 320) (D := 1024) (m ((c : Thread nD τ).loc main_arg0))
        (m ((c : Thread nD τ).loc main_arg3)) (m ((c : Thread nD τ).loc main_arg4)) := by
  rw [result1, final6, V_bias_box, V_main_arg0, V_main_arg3]
  exact transpose_head320 _ _ _

end Cert.KernelIdeal.Heads

end
-- ==== Proof.IdealValues.lean ====
import proofs.«102780_g27968827032233_cont_9to1_1234_17_alg».proof.Defs
import proofs.«102780_g27968827032233_cont_9to1_1234_17_alg».proof.Proof.Gen.KernelIdeal.Frame
import proofs.«102780_g27968827032233_cont_9to1_1234_17_alg».proof.Proof.IdealData
import proofs.«102780_g27968827032233_cont_9to1_1234_17_alg».proof.Proof.IdealRun
import proofs.«102780_g27968827032233_cont_9to1_1234_17_alg».proof.Proof.IdealResult
import proofs.«102780_g27968827032233_cont_9to1_1234_17_alg».proof.Proof.Spec
import Idealize.ShloMosaic.Lib.Pipeline.Kit
import Idealize.ShloMosaic.Lib.Pipeline.FrameSuffix

set_option maxRecDepth 16384

noncomputable section

namespace Cert.KernelIdeal.Heads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

open Cert.KernelIdeal Cert.KernelIdeal.Gen

variable (m : (ℓ : Loc nD τ sig) → Buf (Elt Ideal) ℓ) (ρ : Dev nD → PrngReg)

/-- Every weakly fair run of the idealized kernel ends with the two results at the linear heads of the launch
    arrays — the class scores from the class weights and bias, the box deltas from the box weights and bias — and
    the five argument arrays unchanged. -/
theorem run_values : θ_run defs (onTc (τ := τ) (main (F := Ideal))) ⟨m, fun _ => 0, ρ⟩ (fun r => ∀ c : Dev nD,
      r.2.mem ((c.tc : Thread nD τ).loc main_v0_0)
        = Cert.Heads.linearHead (N := 20000) (C := 81) (D := 1024) (m ((c.tc : Thread nD τ).loc main_arg0))
            (m ((c.tc : Thread nD τ).loc main_arg1)) (m ((c.tc : Thread nD τ).loc main_arg2))
      ∧ r.2.mem ((c.tc : Thread nD τ).loc main_v0_1)
        = Cert.Heads.linearHead (N := 20000) (C := 320) (D := 1024) (m ((c.tc : Thread nD τ).loc main_arg0))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      (((h c).2 main_v0_0 (Pipeline.mem_restRefs_of main_v0_0 (by decide) (by decide))).trans (result0_eq m c)),
      (((h c).2 main_v0_1 (Pipeline.mem_restRefs_of main_v0_1 (by decide) (by decide))).trans (result1_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c))⟩)
    (run_main m ρ)

end Cert.KernelIdeal.Heads

end
-- ==== Proof.RefValue.lean ====
import proofs.«102780_g27968827032233_cont_9to1_1234_17_alg».proof.Proof.Gen.ReferenceIdeal.Read
import proofs.«102780_g27968827032233_cont_9to1_1234_17_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe ValueIdx

/-- The reference's class scores — the activations times the transposed class weights, plus the bias broadcast
    over the rows — are the linear head of the three arrays, index by index. -/
theorem scores_eq (x : FVec Ideal S20000x1024 .f32) (W : FVec Ideal S81x1024 .f32) (b : FVec Ideal S81 .f32) :
    addf (Host.dotGeneral dot_S20000x1024_S1024x81_S20000x81_1_0_0_1_n_n none x (transpose S1024x81 [1, 0] W transposes_S81x1024_S1024x81_1_0))
      (broadcastInDim S20000x81 ![0, 1] bcast_S1x81_S20000x81_0_1 (broadcastInDim S1x81 ![1] bcast_S81_S1x81_1 b))
    = Cert.Heads.linearHead (N := 20000) (C := 81) (D := 1024) x W b := by
  funext i
  obtain ⟨n, c, rfl⟩ : ∃ (n : Fin 20000) (c : Fin 81), i = ix2 n c := ⟨i 0, i 1, eq_ix2 i⟩
  -- the term is the last stage of the first head, read at (n, c)
  show Read.val_main_v4 (F := Ideal) x W b (ix2 n c) = _
  rw [Read.val_main_v4_apply, Read.val_main_v1_apply, Read.val_main_v3_apply, Read.val_main_v2_apply,
    Cert.Heads.linearHead_apply, Ideal.addf_def]
  -- the two broadcasts read the bias at class c
  have e3 : Read.idx_main_v2 (Read.idx_main_v3 (ix2 n c)) = ix1 c :=
    funext fun a => Fin.ext (by match a with | ⟨0, _⟩ => rfl)
  rw [e3]
  congr 1
  refine Finset.sum_congr rfl fun k _ => ?_
  -- term k: the activation at (n, k) times the transposed weights at (k, c), that is the weights at (c, k)
  rw [Read.val_main_v0_apply]
  have e1 : Read.lidx_main_v1 (ix2 n c) k = ix2 n k :=
    funext fun a => Fin.ext (by match a with | ⟨0, _⟩ => rfl | ⟨1, _⟩ => rfl)
  have e2 : Read.idx_main_v0 (Read.ridx_main_v1 (ix2 n c) k) = ix2 c k :=
    funext fun a => Fin.ext (by match a with | ⟨0, _⟩ => rfl | ⟨1, _⟩ => rfl)
  rw [e1, e2]

/-- The reference's box deltas likewise. -/
theorem deltas_eq (x : FVec Ideal S20000x1024 .f32) (W : FVec Ideal S320x1024 .f32) (b : FVec Ideal S320 .f32) :
    addf (Host.dotGeneral dot_S20000x1024_S1024x320_S20000x320_1_0_0_1_n_n none x (transpose S1024x320 [1, 0] W transposes_S320x1024_S1024x320_1_0))
      (broadcastInDim S20000x320 ![0, 1] bcast_S1x320_S20000x320_0_1 (broadcastInDim S1x320 ![1] bcast_S320_S1x320_1 b))
    = Cert.Heads.linearHead (N := 20000) (C := 320) (D := 1024) x W b := by
  funext i
  obtain ⟨n, c, rfl⟩ : ∃ (n : Fin 20000) (c : Fin 320), i = ix2 n c := ⟨i 0, i 1, eq_ix2 i⟩
  -- the term is the last stage of the second head, read at (n, c)
  show Read.val_main_v9 (F := Ideal) x W b (ix2 n c) = _
  rw [Read.val_main_v9_apply, Read.val_main_v6_apply, Read.val_main_v8_apply, Read.val_main_v7_apply,
    Cert.Heads.linearHead_apply, Ideal.addf_def]
  -- the two broadcasts read the bias at output c
  have e3 : Read.idx_main_v7 (Read.idx_main_v8 (ix2 n c)) = ix1 c :=
    funext fun a => Fin.ext (by match a with | ⟨0, _⟩ => rfl)
  rw [e3]
  congr 1
  refine Finset.sum_congr rfl fun k _ => ?_
  -- term k: the activation at (n, k) times the transposed weights at (k, c), that is the weights at (c, k)
  rw [Read.val_main_v5_apply]
  have e1 : Read.lidx_main_v6 (ix2 n c) k = ix2 n k :=
    funext fun a => Fin.ext (by match a with | ⟨0, _⟩ => rfl | ⟨1, _⟩ => rfl)
  have e2 : Read.idx_main_v5 (Read.ridx_main_v6 (ix2 n c) k) = ix2 c k :=
    funext fun a => Fin.ext (by match a with | ⟨0, _⟩ => rfl | ⟨1, _⟩ => rfl)
  rw [e1, e2]

end Cert.ReferenceIdeal.RefValue

end
-- ==== Proof.lean ====
/-
  Two linear heads of one activation matrix, `x · W_clsᵀ + b_cls` ([20000, 81]) and `x · W_boxᵀ + b_box` ([20000, 320]),
  computed by one pipelined kernel against the plain reference.

  The kernel walks the 20000 activation rows in eight blocks of 2560 (the last block holds 2080 rows of the array; what
  its staging buffer holds past them is unknown), keeps both weight matrices and both biases (as columns) resident, and at
  each block computes the TRANSPOSED heads `W · x_blockᵀ + b` ([81, 2560] and [320, 2560]), written back into [81, 20000]
  and [320, 20000] arrays (the last write-back cut at column 20000); two transposes after the region give the results. The
  reference multiplies the activations by the transposed weights and adds the broadcast bias.

  Over the extended reals entry (n, r) of either side is `∑ₖ x[n,k] · W[r,k] + b[r]` (`Cert.Heads.linearHead`): the
  kernel's factor order differs (commutativity of the product), its bias is the column's entry, and an output column
  that is written back reads only an activation row inside the array, so the unknown rows reach no kept result. No law
  used needs finiteness: the precondition is never opened.

  Frames: the idealized kernel's from its run with exact contents (the cut windows stated on their written-back part);
  the word-level kernel's from a run whose staging relations say nothing (at the word level the matrix product is opaque
  in its whole operand, unknown rows included, and the frame does not need its value); the reference's from its
  generated run. The idealization rewrote nothing, so `preserves` is `True`.
-/
import proofs.«102780_g27968827032233_cont_9to1_1234_17_alg».proof.Defs
import proofs.«102780_g27968827032233_cont_9to1_1234_17_alg».proof.Proof.Gen.Kernel
import proofs.«102780_g27968827032233_cont_9to1_1234_17_alg».proof.Proof.Gen.KernelIdeal
import proofs.«102780_g27968827032233_cont_9to1_1234_17_alg».proof.Proof.Gen.ReferenceIdeal
import proofs.«102780_g27968827032233_cont_9to1_1234_17_alg».proof.Proof.Gen.ReferenceIdeal.Run
import proofs.«102780_g27968827032233_cont_9to1_1234_17_alg».proof.Proof.Gen.ReferenceIdeal.Read
import proofs.«102780_g27968827032233_cont_9to1_1234_17_alg».proof.Proof.Gen.Pre_finite_inputs
import proofs.«102780_g27968827032233_cont_9to1_1234_17_alg».proof.Proof.KernelFrame
import proofs.«102780_g27968827032233_cont_9to1_1234_17_alg».proof.Proof.IdealRun
import proofs.«102780_g27968827032233_cont_9to1_1234_17_alg».proof.Proof.IdealValues
import proofs.«102780_g27968827032233_cont_9to1_1234_17_alg».proof.Proof.RefValue
import Idealize.ShloMosaic.Adequacy
import Idealize.ShloMosaic.Init

noncomputable section

namespace Cert.Proof

open Idealize.ShloMosaic Idealize.ShloMosaic.TcCoe Idealize.SL.Sem

/-- The reference's frame: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the five arguments both programs end with the two linear heads of those arguments. -/
theorem algebraic : Cert.algebraic_KernelIdeal_ReferenceIdeal := by
  intro m ρ m' ρ' _ hagree
  refine ⟨_, _, Cert.KernelIdeal.Heads.run_values m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1]
    exact Cert.ReferenceIdeal.RefValue.scores_eq _ _ _
  · rw [(hagree c).1, (hagree c).2.2.2.1, (hagree c).2.2.2.2]
    exact Cert.ReferenceIdeal.RefValue.deltas_eq _ _ _

theorem claim : Cert.Claim := ⟨Cert.Kernel.Gen.facts, Cert.KernelIdeal.Gen.facts, Cert.ReferenceIdeal.Gen.facts, Cert.Pre_finite_inputs.Gen.facts,
  Cert.Kernel.Heads.frame, Cert.KernelIdeal.Heads.frame, frame_ri, trivial, algebraic⟩

end Cert.Proof

end
